-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x1024 : Shape := ⟨2, ![8192, 1024]⟩
abbrev S8192x128 : Shape := ⟨2, ![8192, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S4096x1024 .f32) (main_arg1 : FVec F S8192x1024 .f32) (main_arg2 : FVec F S8192x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S4096x1024 : Shape := ⟨2, ![4096, 1024]⟩
abbrev S8192x1024 : Shape := ⟨2, ![8192, 1024]⟩
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S4096x128 : Shape := ⟨2, ![4096, 128]⟩
abbrev S1024x1024 : Shape := ⟨2, ![1024, 1024]⟩
abbrev S1x1024 : Shape := ⟨2, ![1, 1024]⟩
abbrev S1024x128 : Shape := ⟨2, ![1024, 128]⟩
abbrev S1024x1 : Shape := ⟨2, ![1024, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S8192x128, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_28 : BitVec 32 := 0#32
  let v56 : BitVec 1 := Scalar.cmpi .ne v55 c0_i32_28
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x1024_S8192_d1 : S8192x1024.ReducesTo [1] S8192
  h_S_ : 0 < S_.numel
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x1024_p1_0_S1024x1024 : S1024x1024.Transposes [1, 0] S1024x1024
  broadcasts_S1024x1_S1024x1024 : S1024x1.Broadcasts S1024x1024
  broadcasts_S1x1024_S1024x1024 : S1x1024.Broadcasts S1024x1024
  broadcasts_S1024x1_S1024x128 : S1024x1.Broadcasts S1024x128
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S4096x128.size a
  hwx0_4 : ∀ i : grid0.Coords, EltTy.bits .f32 = 32 ∨ (Rect.block (s := S4096x128) S1024x128.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S8192x1024 : Shape := ⟨2, ![8192, 1024]⟩
abbrev S8192x128 : Shape := ⟨2, ![8192, 128]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S4096x8192 : Shape := ⟨2, ![4096, 8192]⟩
abbrev S1024x8192 : Shape := ⟨2, ![1024, 8192]⟩
abbrev S4096x128 : Shape := ⟨2, ![4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S8192x128, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S1024x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S_, .f32⟩
  | .hbm, ⟨27, _⟩ => ⟨S4096x8192, .f32⟩
  | .hbm, ⟨28, _⟩ => ⟨S4096x8192, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x8192, .f32⟩
  | .hbm, ⟨42, _⟩ => ⟨S4096x8192, .f32⟩
  | .hbm, ⟨43, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S8192x1024_S8192_d1 : S8192x1024.ReducesTo [1] S8192
  bcast_S8192_S8192x1_0 : S8192.BroadcastsInDim S8192x1 (![0] : Fin 1 → Fin S8192x1.rank)
  transposes_S8192x1_S1x8192_1_0 : S8192x1.Transposes [1, 0] S1x8192
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x1024_S1024x8192_1_0 : S8192x1024.Transposes [1, 0] S1024x8192
  bcast_S_S4096x8192 : S_.BroadcastsInDim S4096x8192 (![] : Fin 0 → Fin S4096x8192.rank)
  reducesTo_S4096x8192_S_d0_1 : S4096x8192.ReducesTo [0, 1] S_
  reducesTo_S4096x8192_S4096_d1 : S4096x8192.ReducesTo [1] S4096
  bcast_S_S4096 : S_.BroadcastsInDim S4096 (![] : Fin 0 → Fin S4096.rank)
  dot_S4096x1024_S1024x8192_S4096x8192_1_0_0_1_n_n_wf : DotDims.WF S4096x1024 S1024x8192 S4096x8192 [1] [0] [0] [1] [] []
  dot_S4096x8192_S8192x128_S4096x128_1_0_0_1_n_n_wf : DotDims.WF S4096x8192 S8192x128 S4096x128 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf

class Facts : Prop extends Facts₀ where

variable [Facts]
-- ==== Proof.Spec.lean ====
/-
  The mathematics both programs compute, over the reals, and the lifts that carry real arrays to arrays of
  extended reals.

  For queries `X : 4096 × 1024`, neighbours `N : 8192 × 1024` and values `Y : 8192 × 128`:
  `d i j = sqrt (max ((‖X i‖² + ‖N j‖²) − 2 ⟨X i, N j⟩) 0)` is the Euclidean distance in its expanded form, and the
  result is the distance-weighted average `out i c = Σ_j w i j · Y j c` with `w i ·` the softmax of `−d i ·`.
  A softmax is unchanged by adding a constant to every entry of a row, so the softmax of `M − d i ·` for any real
  `M` is the same weights; and it can be accumulated block by block over `j`, carrying the running maximum
  `μ`, the running denominator `λ = Σ exp (−d − μ)` and the running numerator `α = Σ exp (−d − μ) · Y`,
  rescaling the two sums by `exp (μ_old − μ_new)` whenever the maximum grows.
-/
import Idealize.ShloMosaic.PureOps.Ideal
import Idealize.ShloMosaic.Lib.ValueIdx

noncomputable section

open scoped BigOperators

namespace Cert.Nona

open Idealize.ShloMosaic Idealize.ShloMosaic.ValueIdx

/-! ## Lifts: a real array read as an array of extended reals of a literal shape -/

/-- A real matrix as a rank-2 array of extended reals. -/
def up2 {n0 n1 : ℕ} (A : Fin n0 → Fin n1 → ℝ) : (⟨2, ![n0, n1]⟩ : Shape).Idx → EReal :=
  fun j => ((A (j 0) (j 1) : ℝ) : EReal)

/-- A real column `[n, 1]`. -/
def upC {n : ℕ} (f : Fin n → ℝ) : (⟨2, ![n, 1]⟩ : Shape).Idx → EReal := fun j => ((f (j 0) : ℝ) : EReal)

/-- A real row `[1, n]`. -/
def upR {n : ℕ} (f : Fin n → ℝ) : (⟨2, ![1, n]⟩ : Shape).Idx → EReal := fun j => ((f (j 1) : ℝ) : EReal)

/-- The real matrix under a rank-2 array of extended reals (meaningful where every entry is finite). -/
def re2 {n0 n1 : ℕ} (a : (⟨2, ![n0, n1]⟩ : Shape).Idx → EReal) : Fin n0 → Fin n1 → ℝ :=
  fun i k => (a (ix2 i k)).toReal

@[simp] theorem up2_apply {n0 n1 : ℕ} (A : Fin n0 → Fin n1 → ℝ) (i : Fin n0) (k : Fin n1) :
    up2 A (ix2 i k) = ((A i k : ℝ) : EReal) := rfl

/-- An array all of whose entries are finite is the lift of its real matrix. -/
theorem up2_re2 {n0 n1 : ℕ} (a : (⟨2, ![n0, n1]⟩ : Shape).Idx → EReal) (h : ∀ j, a j ≠ ⊤ ∧ a j ≠ ⊥) :
    up2 (re2 a) = a := by
  funext j
  obtain ⟨i, k, rfl⟩ : ∃ (i : Fin n0) (k : Fin n1), j = ix2 i k := ⟨j 0, j 1, eq_ix2 j⟩
  exact EReal.coe_toReal (h _).1 (h _).2

/-! ## The distance -/

/-- The squared norm of row `i`. -/
def sq {n d : ℕ} (A : Fin n → Fin d → ℝ) (i : Fin n) : ℝ := ∑ k, A i k * A i k

/-- The negated distance from pre-computed squared norms `Q` (of the queries) and `S` (of the neighbours): one
    block's logits. -/
def lgB {a b d : ℕ} (Xb : Fin a → Fin d → ℝ) (Nb : Fin b → Fin d → ℝ) (S : Fin b → ℝ) (Q : Fin a → ℝ)
    (r : Fin a) (s : Fin b) : ℝ :=
  -(Real.sqrt (max (Q r + S s - 2 * ∑ k, Xb r k * Nb s k) 0))

/-- The Euclidean distance between query `i` and neighbour `j`, in its expanded quadratic form. -/
def dist {n n' d : ℕ} (X : Fin n → Fin d → ℝ) (N : Fin n' → Fin d → ℝ) (i : Fin n) (j : Fin n') : ℝ :=
  Real.sqrt (max (sq X i + sq N j - 2 * ∑ k, X i k * N j k) 0)

/-! ## One row of the online softmax, block by block

`g b s` is the logit of column `s` of block `b`, `y b s` the value paired with it. -/

section Online
variable {σ : Type} [Fintype σ] [Nonempty σ]

/-- The largest entry of a block. -/
def bmax (f : σ → ℝ) : ℝ := Finset.univ.sup' Finset.univ_nonempty f

/-- The running maximum after blocks `0 … k`. -/
def Mx (g : ℕ → σ → ℝ) : ℕ → ℝ
  | 0 => bmax (g 0)
  | k + 1 => max (Mx g k) (bmax (g (k + 1)))

/-- The running denominator after blocks `0 … k`, relative to the running maximum. -/
def Lx (g : ℕ → σ → ℝ) : ℕ → ℝ
  | 0 => ∑ s, Real.exp (g 0 s - Mx g 0)
  | k + 1 => Real.exp (Mx g k - Mx g (k + 1)) * Lx g k + ∑ s, Real.exp (g (k + 1) s - Mx g (k + 1))

/-- The running numerator after blocks `0 … k`, relative to the running maximum. -/
def Ax (g y : ℕ → σ → ℝ) : ℕ → ℝ
  | 0 => ∑ s, Real.exp (g 0 s - Mx g 0) * y 0 s
  | k + 1 => Real.exp (Mx g k - Mx g (k + 1)) * Ax g y k + ∑ s, Real.exp (g (k + 1) s - Mx g (k + 1)) * y (k + 1) s

end Online

/-! ## The two programs' results for this problem's sizes -/

/-- Column `s` of block `b` among the 8192 neighbours (the remainder only makes the function total). -/
def jOf (b : ℕ) (s : Fin 1024) : Fin 8192 := ⟨(1024 * b + s.val) % 8192, Nat.mod_lt _ (by norm_num)⟩

/-- Row `r` of tile `q` among the 4096 queries. -/
def iOf (q : ℕ) (r : Fin 1024) : Fin 4096 := ⟨(1024 * q + r.val) % 4096, Nat.mod_lt _ (by norm_num)⟩

/-- Query `i`'s logits, block by block. -/
def gRow (X : Fin 4096 → Fin 1024 → ℝ) (N : Fin 8192 → Fin 1024 → ℝ) (i : Fin 4096) (b : ℕ) (s : Fin 1024) : ℝ :=
  -(dist X N i (jOf b s))

/-- Value column `c`, block by block. -/
def yRow (Y : Fin 8192 → Fin 128 → ℝ) (c : Fin 128) (b : ℕ) (s : Fin 1024) : ℝ := Y (jOf b s) c

/-- What the blockwise accumulation ends with after the eighth block: numerator over denominator. -/
def onlineOut (X : Fin 4096 → Fin 1024 → ℝ) (N : Fin 8192 → Fin 1024 → ℝ) (Y : Fin 8192 → Fin 128 → ℝ)
    (i : Fin 4096) (c : Fin 128) : ℝ :=
  Ax (gRow X N i) (yRow Y c) 7 / Lx (gRow X N i) 7

/-- The largest distance over all pairs. -/
def distMax (X : Fin 4096 → Fin 1024 → ℝ) (N : Fin 8192 → Fin 1024 → ℝ) : ℝ :=
  Finset.univ.sup' Finset.univ_nonempty fun p : Fin 4096 × Fin 8192 => dist X N p.1 p.2

/-- Row `i` of "nearness": the largest distance minus the distance. -/
def near (X : Fin 4096 → Fin 1024 → ℝ) (N : Fin 8192 → Fin 1024 → ℝ) (i : Fin 4096) (j : Fin 8192) : ℝ :=
  distMax X N - dist X N i j

/-- The softmax over a whole row of nearness, then the weighted sum of the values: weight by weight. -/
def softmaxOut (X : Fin 4096 → Fin 1024 → ℝ) (N : Fin 8192 → Fin 1024 → ℝ) (Y : Fin 8192 → Fin 128 → ℝ)
    (i : Fin 4096) (c : Fin 128) : ℝ :=
  ∑ j, (Real.exp (near X N i j - Finset.univ.sup' Finset.univ_nonempty (near X N i))
        / ∑ j', Real.exp (near X N i j' - Finset.univ.sup' Finset.univ_nonempty (near X N i))) * Y j c

end Cert.Nona

end
-- ==== Proof.Online.lean ====
/-
  The blockwise accumulation of a softmax-weighted sum equals the weighted sum under the softmax of the whole row,
  and a row's softmax does not see a constant added to every entry.
-/
import proofs.«405029_j15169824489967_3_alg».proof.Proof.Spec

noncomputable section

open scoped BigOperators

namespace Cert.Nona

/-! ## Closed forms of the two running sums

After blocks `0 … k` the running denominator is the sum of `exp (g b s − μ_k)` over every column of every block seen
so far, and the running numerator is the same sum weighted by the values.  Each step multiplies the old sum by
`exp (μ_k − μ_{k+1})`, which moves every old term's reference point from `μ_k` to `μ_{k+1}`. -/

section Closed
variable {σ : Type} [Fintype σ] [Nonempty σ]

/-- Moving the reference point of an exponential from `a` to `b`. -/
private theorem exp_rebase (a b c : ℝ) : Real.exp (a - b) * Real.exp (c - a) = Real.exp (c - b) := by
  rw [← Real.exp_add]
  congr 1
  ring

private theorem Lx_closed (g : ℕ → σ → ℝ) (k : ℕ) :
    Lx g k = ∑ b ∈ Finset.range (k + 1), ∑ s, Real.exp (g b s - Mx g k) := by
  induction k with
  | zero => simp [Lx]
  | succ k ih =>
    rw [Finset.sum_range_succ, Lx, ih, Finset.mul_sum]
    congr 1
    refine Finset.sum_congr rfl fun b _ => ?_
    rw [Finset.mul_sum]
    exact Finset.sum_congr rfl fun s _ => exp_rebase _ _ _

private theorem Ax_closed (g y : ℕ → σ → ℝ) (k : ℕ) :
    Ax g y k = ∑ b ∈ Finset.range (k + 1), ∑ s, Real.exp (g b s - Mx g k) * y b s := by
  induction k with
  | zero => simp [Ax]
  | succ k ih =>
    rw [Finset.sum_range_succ, Ax, ih, Finset.mul_sum]
    congr 1
    refine Finset.sum_congr rfl fun b _ => ?_
    rw [Finset.mul_sum]
    refine Finset.sum_congr rfl fun s _ => ?_
    rw [← mul_assoc, exp_rebase]

end Closed

/-! ## A ratio of exponential sums does not see the reference point -/

private theorem sum_exp_shift {ι : Type} (t : Finset ι) (a : ι → ℝ) (m : ℝ) :
    ∑ j ∈ t, Real.exp (a j - m) = (∑ j ∈ t, Real.exp (a j)) * Real.exp (-m) := by
  rw [Finset.sum_mul]
  refine Finset.sum_congr rfl fun j _ => ?_
  rw [← Real.exp_add, sub_eq_add_neg]

private theorem sum_exp_mul_shift {ι : Type} (t : Finset ι) (a y : ι → ℝ) (m : ℝ) :
    ∑ j ∈ t, Real.exp (a j - m) * y j = (∑ j ∈ t, Real.exp (a j) * y j) * Real.exp (-m) := by
  rw [Finset.sum_mul]
  refine Finset.sum_congr rfl fun j _ => ?_
  rw [sub_eq_add_neg, Real.exp_add]
  ring

/-- Numerator and denominator carry the same factor `exp (−m)`, which cancels. -/
private theorem ratio_shift {ι : Type} (t : Finset ι) (a y : ι → ℝ) (m : ℝ) :
    (∑ j ∈ t, Real.exp (a j - m) * y j) / (∑ j ∈ t, Real.exp (a j - m))
      = (∑ j ∈ t, Real.exp (a j) * y j) / (∑ j ∈ t, Real.exp (a j)) := by
  rw [sum_exp_shift, sum_exp_mul_shift]
  exact mul_div_mul_right _ _ (Real.exp_pos _).ne'

/-- A sum of normalised weights times values is the weighted sum over the normaliser. -/
private theorem weights_sum {ι : Type} (t : Finset ι) (e y : ι → ℝ) (S : ℝ) :
    ∑ j ∈ t, (e j / S) * y j = (∑ j ∈ t, e j * y j) / S := by
  rw [Finset.sum_div]
  exact Finset.sum_congr rfl fun j _ => div_mul_eq_mul_div _ _ _

/-! ## Eight blocks of 1024 columns tile the 8192 neighbours -/

/-- `(b, s) ↦ 1024 b + s` is a bijection from block and column onto the neighbours; its inverse is quotient and
    remainder by 1024. -/
private def blockEquiv : Fin 8 × Fin 1024 ≃ Fin 8192 where
  toFun p := jOf p.1.val p.2
  invFun j := (⟨j.val / 1024, by have := j.isLt; omega⟩, ⟨j.val % 1024, Nat.mod_lt _ (by norm_num)⟩)
  left_inv := by
    rintro ⟨b, s⟩
    have hb := b.isLt
    have hs := s.isLt
    refine Prod.ext (Fin.ext ?_) (Fin.ext ?_)
    · show (1024 * b.val + s.val) % 8192 / 1024 = b.val
      omega
    · show (1024 * b.val + s.val) % 8192 % 1024 = s.val
      omega
  right_inv := by
    intro j
    have hj := j.isLt
    refine Fin.ext ?_
    show (1024 * (j.val / 1024) + j.val % 1024) % 8192 = j.val
    omega

private theorem sum_blocks (F : Fin 8192 → ℝ) :
    ∑ b ∈ Finset.range 8, ∑ s : Fin 1024, F (jOf b s) = ∑ j : Fin 8192, F j := by
  rw [Finset.sum_range (fun b => ∑ s : Fin 1024, F (jOf b s)),
    ← Fintype.sum_prod_type' (fun (b : Fin 8) (s : Fin 1024) => F (jOf b.val s))]
  exact blockEquiv.sum_comp F

/-! ## The two results -/

/-- Numerator over denominator after the eighth block is the sum, over all 8192 neighbours, of the softmax weight
    of "largest distance minus distance" times the value. -/
theorem onlineOut_eq_softmaxOut (X : Fin 4096 → Fin 1024 → ℝ) (N : Fin 8192 → Fin 1024 → ℝ) (Y : Fin 8192 → Fin 128 → ℝ)
    (i : Fin 4096) (c : Fin 128) : onlineOut X N Y i c = softmaxOut X N Y i c := by
  -- both sides equal the ratio of the unnormalised sums of `exp (−d i j)`
  have hA : Ax (gRow X N i) (yRow Y c) 7
      = ∑ j : Fin 8192, Real.exp (-(dist X N i j) - Mx (gRow X N i) 7) * Y j c := by
    rw [Ax_closed]
    exact sum_blocks fun j => Real.exp (-(dist X N i j) - Mx (gRow X N i) 7) * Y j c
  have hL : Lx (gRow X N i) 7 = ∑ j : Fin 8192, Real.exp (-(dist X N i j) - Mx (gRow X N i) 7) := by
    rw [Lx_closed]
    exact sum_blocks fun j => Real.exp (-(dist X N i j) - Mx (gRow X N i) 7)
  have hnear : ∀ j : Fin 8192,
      near X N i j - Finset.univ.sup' Finset.univ_nonempty (near X N i)
        = -(dist X N i j) - (Finset.univ.sup' Finset.univ_nonempty (near X N i) - distMax X N) := by
    intro j
    unfold near
    ring
  unfold onlineOut softmaxOut
  rw [hA, hL, ratio_shift, weights_sum]
  simp only [hnear]
  rw [ratio_shift]

/-- The denominator after any block is positive: the block holding the running maximum contributes `exp 0`. -/
theorem Lx_pos {σ : Type} [Fintype σ] [Nonempty σ] (g : ℕ → σ → ℝ) (k : ℕ) : 0 < Lx g k := by
  induction k with
  | zero =>
    rw [Lx]
    exact Finset.sum_pos (fun s _ => Real.exp_pos _) Finset.univ_nonempty
  | succ k ih =>
    rw [Lx]
    exact add_pos (mul_pos (Real.exp_pos _) ih)
      (Finset.sum_pos (fun s _ => Real.exp_pos _) Finset.univ_nonempty)

end Cert.Nona

end
-- ==== Proof.Finite.lean ====
/-
  Under the precondition every entry of the three inputs is a real number: the precondition says, array by array,
  that every absolute value is below +∞.
-/
import proofs.«405029_j15169824489967_3_alg».proof.Pre_finite_inputs
import proofs.«405029_j15169824489967_3_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The scalar shape has exactly one index. -/
private instance : Subsingleton S_.Idx := ⟨fun a b => funext fun d => d.elim0⟩

/-- One entry: if the bit of "|x| < +∞" is 1, then x is neither +∞ nor −∞. Here |x| is max x (−x), and the f32
    pattern 0x7F800000 is +∞. -/
private theorem finite_of_bit (x : EReal)
    (h : FloatOps.cmpf (F := Ideal) (φ := .f32) .olt (FloatOps.hostAbsf x) (Ideal.ofBits .f32 0x7F800000#32) = 1#1) :
    x ≠ (⊤ : EReal) ∧ x ≠ (⊥ : EReal) := by
  -- sign bit clear, exponent field all ones, fraction field zero: the pattern is +∞
  have htop : Ideal.ofBits .f32 0x7F800000#32 = ⊤ := by simp [Ideal.ofBits, Ideal.ieee]
  rw [htop] at h
  change Ideal.cmp .olt (max x (-x)) ⊤ = 1#1 at h
  -- the bit of a strict comparison is 1 only when the comparison holds
  have hlt : max x (-x) < ⊤ := by
    by_contra hn
    simp [Ideal.cmp, hn] at h
  -- both x and −x lie below +∞; the first excludes x = +∞, the second x = −∞ (whose negative is +∞)
  rw [max_lt_iff] at hlt
  refine ⟨ne_of_lt hlt.1, fun hb => ?_⟩
  rw [hb] at hlt
  simp at hlt

/-- If the precondition's predicate is all ones, no entry of any input is +∞ or −∞. -/
theorem finite_of_pre [Cert.Pre_finite_inputs.Facts]
    (x : FVec Ideal S4096x1024 .f32) (xn : FVec Ideal S8192x1024 .f32) (y : FVec Ideal S8192x128 .f32)
    (h : Cert.Pre_finite_inputs.fn (F := Ideal) x xn y = fun _ => 1#1) :
    (∀ j, x j ≠ (⊤ : EReal) ∧ x j ≠ (⊥ : EReal)) ∧ (∀ j, xn j ≠ (⊤ : EReal) ∧ xn j ≠ (⊥ : EReal))
      ∧ (∀ j, y j ≠ (⊤ : EReal) ∧ y j ≠ (⊥ : EReal)) := by
  -- read the predicate at its one index and open its definition
  have h0 := congrFun h ValueIdx.ix0
  dsimp only [Cert.Pre_finite_inputs.fn] at h0
  -- the result is two nested one-bit ands of three scalars: all three scalars are 1
  obtain ⟨h12, h3⟩ := IntOp.andi_eq_one.1 h0
  obtain ⟨h1, h2⟩ := IntOp.andi_eq_one.1 h12
  -- each scalar is the and over all entries of one array, so every entry's compare bit is 1;
  -- at an entry the compared values are |entry| and the splat of +∞
  refine ⟨fun j => finite_of_bit (x j) ?_, fun j => finite_of_bit (xn j) ?_, fun j => finite_of_bit (y j) ?_⟩
  · exact Host.reduce_andi_all _ _ _ _ _ h1 j
  · exact Host.reduce_andi_all _ _ _ _ _ h2 j
  · exact Host.reduce_andi_all _ _ _ _ _ h3 j

end Cert.Finite

end
-- ==== Proof.LibEReal.lean ====
/-
  Extended reals that are real numbers: sums, maxima and the corner-case operations (exponential, square root,
  quotient) of real numbers stay real, and the float patterns for −∞, 0 and 2 are what they say.
-/
import Idealize.ShloMosaic.PureOps.Ideal
import Idealize.ShloMosaic.PureOps.Ideal.Laws

noncomputable section

open scoped BigOperators

namespace Cert.LibEReal

open Idealize.ShloMosaic

/-- A finite sum of real numbers, taken among the extended reals, is the real sum. -/
theorem coe_sum {ι : Type} (s : Finset ι) (f : ι → ℝ) :
    (∑ i ∈ s, ((f i : ℝ) : EReal)) = ((∑ i ∈ s, f i : ℝ) : EReal) := by
  classical
  -- by induction on the index set: the embedding of ℝ respects 0 and binary sums
  induction s using Finset.induction_on with
  | empty => simp
  | insert a s ha ih => rw [Finset.sum_insert ha, Finset.sum_insert ha, ih, EReal.coe_add]

/-- The maximum of two real numbers among the extended reals is the real maximum. -/
theorem max_coe (a b : ℝ) : max ((a : ℝ) : EReal) ((b : ℝ) : EReal) = ((max a b : ℝ) : EReal) := by
  -- the embedding of ℝ is monotone, and a monotone map commutes with binary maxima
  exact (EReal.coe_strictMono.monotone.map_max (a := a) (b := b)).symm

/-- Folding `max` over a nonempty finite family of reals from a real start is the real maximum of the start and the
    family's largest member. -/
theorem fold_max_coe {ι : Type} [Fintype ι] [Nonempty ι] (a : ℝ) (f : ι → ℝ) :
    (Finset.univ : Finset ι).fold max ((a : ℝ) : EReal) (fun i => ((f i : ℝ) : EReal))
      = ((max a (Finset.univ.sup' Finset.univ_nonempty f) : ℝ) : EReal) := by
  -- two inequalities: the fold is the least upper bound of the start and the members
  apply le_antisymm
  · refine (Finset.fold_max_le _).2 ⟨?_, fun i hi => ?_⟩
    · exact EReal.coe_le_coe_iff.2 (le_max_left _ _)
    · exact EReal.coe_le_coe_iff.2 (le_max_of_le_right (Finset.le_sup' f hi))
  · -- the real maximum is attained, either at the start or at some member
    rcases max_choice a (Finset.univ.sup' Finset.univ_nonempty f) with h | h
    · rw [h]; exact (Finset.le_fold_max _).2 (Or.inl le_rfl)
    · rw [h]
      obtain ⟨i, hi, hsup⟩ := Finset.exists_mem_eq_sup' Finset.univ_nonempty f
      rw [hsup]
      exact (Finset.le_fold_max _).2 (Or.inr ⟨i, hi, le_rfl⟩)

/-- Folding `max` over a nonempty finite family of reals from −∞ is the family's largest member. -/
theorem fold_max_bot_coe {ι : Type} [Fintype ι] [Nonempty ι] (f : ι → ℝ) :
    (Finset.univ : Finset ι).fold max (⊥ : EReal) (fun i => ((f i : ℝ) : EReal))
      = ((Finset.univ.sup' Finset.univ_nonempty f : ℝ) : EReal) := by
  -- two inequalities again; −∞ is below everything, and the largest member is attained
  apply le_antisymm
  · refine (Finset.fold_max_le _).2 ⟨bot_le, fun i hi => ?_⟩
    exact EReal.coe_le_coe_iff.2 (Finset.le_sup' f hi)
  · obtain ⟨i, hi, hsup⟩ := Finset.exists_mem_eq_sup' Finset.univ_nonempty f
    rw [hsup]
    exact (Finset.le_fold_max _).2 (Or.inr ⟨i, hi, le_rfl⟩)

/-- The f32 pattern `0xFF800000` is −∞. -/
theorem ofBits_neg_inf : Ideal.ofBits .f32 0xFF800000#32 = (⊥ : EReal) := by
  -- sign bit set, exponent field all ones, fraction field zero
  simp [Ideal.ofBits, Ideal.ieee]

/-- The f32 pattern `0x40000000` is 2. -/
theorem ofBits_two : Ideal.ofBits .f32 0x40000000#32 = ((2 : ℝ) : EReal) := by
  -- sign bit clear, exponent field 128, fraction field zero: 2^23 · 2^(128 − 127 − 23) = 2
  simp [Ideal.ofBits, Ideal.ieee]
  rw [← EReal.coe_mul, EReal.coe_eq_coe_iff]
  norm_num

/-- The exponential of a real number. -/
theorem exp_coe (r : ℝ) : Ideal.exp ((r : ℝ) : EReal) = ((Real.exp r : ℝ) : EReal) := by
  exact Ideal.exp_coe r

/-- The exponential of −∞ is 0. -/
theorem exp_bot : Ideal.exp (⊥ : EReal) = 0 := by
  exact Ideal.exp_bot

/-- The square root of a nonnegative real number. -/
theorem sqrt_coe {r : ℝ} (h : 0 ≤ r) : Ideal.sqrt ((r : ℝ) : EReal) = ((Real.sqrt r : ℝ) : EReal) := by
  -- the negative branch of the definition is excluded by the hypothesis
  rw [Ideal.sqrt_coe, if_neg (not_lt.2 h)]

/-- The quotient of a real number by a nonzero real number. -/
theorem div_coe_coe (a : ℝ) {b : ℝ} (h : b ≠ 0) :
    Ideal.div ((a : ℝ) : EReal) ((b : ℝ) : EReal) = ((a / b : ℝ) : EReal) := by
  -- off zero the quotient is the product with the reciprocal, and a product of reals is real
  rw [Ideal.div_coe h, ← EReal.coe_mul, mul_one_div]

end Cert.LibEReal

end
-- ==== Proof.Blocks.lean ====
/-
  What the region finds and what each grid point's windows hold, on real inputs.

  Before the region the host computes the neighbours' squared norms, `S j = 0 + Σ_k N j k · N j k`, laid out as one
  row of 8192. The grid has 4 query tiles × 8 key blocks, visited tile by tile: point `t` is tile `t / 8`, block
  `t % 8`. At point `t` the windows hold rows `1024·(t/8) + r` of the queries, rows `1024·(t%8) + s` of the
  neighbours and of the values, and entries `1024·(t%8) + s` of the squared norms.
-/
import proofs.«405029_j15169824489967_3_alg».proof.Proof.Gen.KernelIdeal.Value
import proofs.«405029_j15169824489967_3_alg».proof.Proof.Spec
import proofs.«405029_j15169824489967_3_alg».proof.Proof.LibEReal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Cert.Nona Idealize.ShloMosaic Idealize.ShloMosaic.TcCoe
open Idealize.ShloMosaic.ValueIdx Idealize.SL.Sem Idealize.ShloMosaic.StableHlo

variable (m : (ℓ : Loc nD τ sig) → Buf (Elt Ideal) ℓ)

/-! ## The host's squared norms -/

/-- The row the host hands the region: the row sums of the neighbours' squares, recast from `[8192]` to `[1, 8192]`. -/
theorem V_main_v2_eq (c : Dev nD) :
    V m c main_v2 = shapeCast S1x8192
      (Host.reduceAdd (F := Ideal) (mulf (m ((c : Thread nD τ).loc main_arg1)) (m ((c : Thread nD τ).loc main_arg1)))
        (constant S_ .f32 0x00000000#32) reducesTo_S8192x1024_S8192_d1 h_S_)
      shapeCasts_S8192_S1x8192 := by
  dsimp only [V, hostOps0]
  after_results
  rfl

/-- On real neighbours that row is the lift of their squared norms. -/
theorem xnsq_real (c : Dev nD) (N : Fin 8192 → Fin 1024 → ℝ) (hn : m ((c : Thread nD τ).loc main_arg1) = up2 N) :
    V m c main_v2 = upR (sq N) := by
  rw [V_main_v2_eq, hn]
  funext j
  obtain ⟨u, s, rfl⟩ : ∃ (u : Fin 1) (s : Fin 8192), j = ix2 u s := ⟨j 0, j 1, eq_ix2 j⟩
  rw [shapeCast_a_1a_apply]
  simp only [Host.reduceAdd, Ideal.hostReduceAdd_def]
  rw [Ideal.hostReduceAdd_single reducesTo_S8192x1024_S8192_d1 (by decide)]
  have key : ∀ k : Fin 1024,
      mulf (F := Ideal) (φ := .f32) (up2 N) (up2 N) (Shape.Reduces.lift (show S8192x1024.Reduces [1] S8192 by decide) (ix1 s) k)
        = ((N s k * N s k : ℝ) : EReal) := by
    intro k
    have e : Shape.Reduces.lift (show S8192x1024.Reduces [1] S8192 by decide) (ix1 s) k = ix2 s k :=
      funext fun a => Fin.ext (by match a with | ⟨0, _⟩ => rfl | ⟨1, _⟩ => rfl)
    rw [e]
    exact (EReal.coe_mul _ _).symm
  rw [show constant (F := Ideal) S_ .f32 (0#32) (Shape.Idx.first h_S_) = (0 : EReal) from Ideal.ofBits_zero_f32, zero_add]
  refine (Finset.sum_congr rfl (fun k _ => key k)).trans ?_
  exact Cert.LibEReal.coe_sum Finset.univ (fun k : Fin 1024 => N s k * N s k)

/-! ## The windows' block indices over the grid -/

/-- Point `t` is query tile `t / 8`, key block `t % 8`: the printed index maps, decided over the 32 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val % 8 ∧ win0_3.index t (1 : Fin 2) = 0
    ∧ win0_4.index t (0 : Fin 2) = t.val / 8 ∧ win0_4.index t (1 : Fin 2) = 0 :=
  (by decide +kernel : ∀ t : Fin grid0.N, _)

/-! ## The input blocks at a point -/

/-- The query block at point `t`: rows `1024·(t/8) + r`. -/
theorem blk0_real (c : Dev nD) (t : Fin cfg0.N) (X : Fin 4096 → Fin 1024 → ℝ)
    (hx : m ((c : Thread nD τ).loc main_arg0) = up2 X) :
    iblk m c 0 t = up2 (fun (r : Fin 1024) (k : Fin 1024) => X (iOf (t.val / 8) r) k) := by
  obtain ⟨e00, e01, -⟩ := idx_facts t
  have ht : t.val < 32 := lt_of_lt_of_eq t.isLt N_0
  funext y
  show V m c main_arg0 (((cfg0.win 0).blk t).view.emb y) = _
  rw [V_main_arg0, hx]
  have h0 : (((cfg0.win 0).blk t).view.emb y) 0 = iOf (t.val / 8) (y 0) := Fin.ext (by
    show win0_0.index t (0 : Fin 2) * 1024 + 1 * (y 0).val = (1024 * (t.val / 8) + (y 0).val) % 4096
    have hy : (y 0).val < 1024 := (y 0).isLt
    omega)
  have h1 : (((cfg0.win 0).blk t).view.emb y) 1 = y 1 := Fin.ext (by
    show win0_0.index t (1 : Fin 2) * 1024 + 1 * (y 1).val = (y 1).val
    omega)
  show ((X ((((cfg0.win 0).blk t).view.emb y) 0) ((((cfg0.win 0).blk t).view.emb y) 1) : ℝ) : EReal) = ((X (iOf (t.val / 8) (y 0)) (y 1) : ℝ) : EReal)
  rw [h0, h1]

/-- The key block at point `t`: rows `1024·(t%8) + s` of the neighbours. -/
theorem blk1_real (c : Dev nD) (t : Fin cfg0.N) (N : Fin 8192 → Fin 1024 → ℝ)
    (hn : m ((c : Thread nD τ).loc main_arg1) = up2 N) :
    iblk m c 1 t = up2 (fun (s : Fin 1024) (k : Fin 1024) => N (jOf (t.val % 8) s) k) := by
  obtain ⟨-, -, e10, e11, -⟩ := idx_facts t
  funext y
  show V m c main_arg1 (((cfg0.win 1).blk t).view.emb y) = _
  rw [V_main_arg1, hn]
  have h0 : (((cfg0.win 1).blk t).view.emb y) 0 = jOf (t.val % 8) (y 0) := Fin.ext (by
    show win0_1.index t (0 : Fin 2) * 1024 + 1 * (y 0).val = (1024 * (t.val % 8) + (y 0).val) % 8192
    have hy : (y 0).val < 1024 := (y 0).isLt
    omega)
  have h1 : (((cfg0.win 1).blk t).view.emb y) 1 = y 1 := Fin.ext (by
    show win0_1.index t (1 : Fin 2) * 1024 + 1 * (y 1).val = (y 1).val
    omega)
  show ((N ((((cfg0.win 1).blk t).view.emb y) 0) ((((cfg0.win 1).blk t).view.emb y) 1) : ℝ) : EReal) = ((N (jOf (t.val % 8) (y 0)) (y 1) : ℝ) : EReal)
  rw [h0, h1]

/-- The squared-norm block at point `t`: entries `1024·(t%8) + s` of the host's row. -/
theorem blk2_real (c : Dev nD) (t : Fin cfg0.N) (N : Fin 8192 → Fin 1024 → ℝ)
    (hn : m ((c : Thread nD τ).loc main_arg1) = up2 N) :
    iblk m c 2 t = upR (fun (s : Fin 1024) => sq N (jOf (t.val % 8) s)) := by
  obtain ⟨-, -, -, -, e20, e21, -⟩ := idx_facts t
  funext y
  show V m c main_v2 (((cfg0.win 2).blk t).view.emb y) = _
  rw [xnsq_real m c N hn]
  have h1 : (((cfg0.win 2).blk t).view.emb y) 1 = jOf (t.val % 8) (y 1) := Fin.ext (by
    show win0_2.index t (1 : Fin 2) * 1024 + 1 * (y 1).val = (1024 * (t.val % 8) + (y 1).val) % 8192
    have hy : (y 1).val < 1024 := (y 1).isLt
    omega)
  show ((sq N ((((cfg0.win 2).blk t).view.emb y) 1) : ℝ) : EReal) = ((sq N (jOf (t.val % 8) (y 1)) : ℝ) : EReal)
  rw [h1]

/-- The value block at point `t`: rows `1024·(t%8) + s` of the values. -/
theorem blk3_real (c : Dev nD) (t : Fin cfg0.N) (Y : Fin 8192 → Fin 128 → ℝ)
    (hy : m ((c : Thread nD τ).loc main_arg2) = up2 Y) :
    iblk m c 3 t = up2 (fun (s : Fin 1024) (c' : Fin 128) => Y (jOf (t.val % 8) s) c') := by
  obtain ⟨-, -, -, -, -, -, e30, e31, -⟩ := idx_facts t
  funext y
  show V m c main_arg2 (((cfg0.win 3).blk t).view.emb y) = _
  rw [V_main_arg2, hy]
  have h0 : (((cfg0.win 3).blk t).view.emb y) 0 = jOf (t.val % 8) (y 0) := Fin.ext (by
    show win0_3.index t (0 : Fin 2) * 1024 + 1 * (y 0).val = (1024 * (t.val % 8) + (y 0).val) % 8192
    have hy0 : (y 0).val < 1024 := (y 0).isLt
    omega)
  have h1 : (((cfg0.win 3).blk t).view.emb y) 1 = y 1 := Fin.ext (by
    show win0_3.index t (1 : Fin 2) * 128 + 1 * (y 1).val = (y 1).val
    omega)
  show ((Y ((((cfg0.win 3).blk t).view.emb y) 0) ((((cfg0.win 3).blk t).view.emb y) 1) : ℝ) : EReal) = ((Y (jOf (t.val % 8) (y 0)) (y 1) : ℝ) : EReal)
  rw [h0, h1]

end Cert.KernelIdeal.Blocks

end
-- ==== Proof.Step.lean ====
/-
  One update of the carried quantities, as the body's own arithmetic: from the tile's query block `x0`, the key
  block `x1`, the keys' squared norms `x2`, the value block `x3`, the queries' squared norms `q`, and the running
  maximum `mp`, denominator `lp` and numerator `ap` the block before left.
-/
import proofs.«405029_j15169824489967_3_alg».proof.Proof.Gen.KernelIdeal.Skeleton

noncomputable section

namespace Cert.KernelIdeal.Step

open Cert.KernelIdeal Cert.KernelIdeal.Gen Idealize.ShloMosaic

variable {F : FTy → Type} [FloatOps F]

/-- The new running maximum: the larger of the old one and the block's row maximum of the logits. -/
def mNew (x0 x1 : Vec F S1024x1024 .f32) (x2 : Vec F S1x1024 .f32) (q mp : Vec F S1024x1 .f32) : Vec F S1024x1 .f32 :=
  k0_pay2 (k0_pay12 x0 x1 x2 q mp)

/-- The new denominator: the old one rescaled by `exp (old maximum − new maximum)`, plus the block's sum of
    `exp (logit − new maximum)`. -/
def lNew (x0 x1 : Vec F S1024x1024 .f32) (x2 : Vec F S1x1024 .f32) (q mp lp : Vec F S1024x1 .f32) : Vec F S1024x1 .f32 :=
  k0_pay3 mp lp (k0_pay12 x0 x1 x2 q mp) (k0_pay13 x0 x1 x2 q mp)

/-- The new numerator: the old one rescaled the same way, plus the block's `exp (logit − new maximum)` times the
    value block. -/
def aNew (x0 x1 : Vec F S1024x1024 .f32) (x2 : Vec F S1x1024 .f32) (x3 : Vec F S1024x128 .f32) (q mp : Vec F S1024x1 .f32)
    (ap : Vec F S1024x128 .f32) : Vec F S1024x128 .f32 :=
  k0_pay4 (k0_pay10 x3) mp ap (k0_pay12 x0 x1 x2 q mp) (k0_pay13 x0 x1 x2 q mp)

/-- The output tile: the new numerator over the new denominator. -/
def outNew (x0 x1 : Vec F S1024x1024 .f32) (x2 : Vec F S1x1024 .f32) (x3 : Vec F S1024x128 .f32) (q mp lp : Vec F S1024x1 .f32)
    (ap : Vec F S1024x128 .f32) : Vec F S1024x128 .f32 :=
  k0_pay5 (aNew x0 x1 x2 x3 q mp ap) (lNew x0 x1 x2 q mp lp)

end Cert.KernelIdeal.Step

end
-- ==== Proof.Pieces.lean ====
/-
  What each of the body's three control cases leaves in the four carried buffers and in the output tile, as the
  body's own arithmetic applied to the tile's input blocks and to what the block before left.

  The body keeps, per query row of the tile, a running maximum of the logits, a denominator, the row's squared
  norm and a numerator. At the first key block of a tile it resets the first, second and fourth and computes the
  third, then performs the common update; at the last block it also divides numerator by denominator into the
  output tile.
-/
import proofs.«405029_j15169824489967_3_alg».proof.Proof.Gen.KernelIdeal.Frame
import proofs.«405029_j15169824489967_3_alg».proof.Proof.Step
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The origin of a rectangle that spans a whole two-axis buffer, written as the pair (0, 0), is the zero offset. -/
private theorem hz : (![0, 0] : Fin 2 → Nat) = fun _ => 0 := funext fun a => by fin_cases a <;> rfl

/-- At a first block the running maximum is the block's own row maximum (taken over the −∞ the case has just stored). -/
theorem sout0_A_0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (x0 : Vec F S1024x1024 .f32) (x1 : Vec F S1024x1024 .f32) (x2 : Vec F S1x1024 .f32) (x3 : Vec F S1024x128 .f32) :
    sout0_A_0 c i arg2 harg2 arg3 harg3 arg4 harg4 arg5 harg5 arg6 harg6 arg7 harg7 arg8 harg8 arg9 harg9 arg10 harg10 hc0 hc1 x0 x1 x2 x3 = Step.mNew x0 x1 x2 (k0_pay9 x0) k0_pay6 := by
  -- The update's store spans the buffer and hides the reset beneath it; what the update reads of a buffer just reset is the reset's value, and of the squared norms the value just computed.
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, View.ld_unit_zero (S := S1024x1024) hz, View.ld_unit_zero (S := S1x1024) hz, View.readCov_unit_zero (S := S1024x1) _ hz]
  rfl

/-- At a first block the denominator is the block's sum of exponentials (over the zero the case has just stored). -/
theorem sout0_A_1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (x0 : Vec F S1024x1024 .f32) (x1 : Vec F S1024x1024 .f32) (x2 : Vec F S1x1024 .f32) (x3 : Vec F S1024x128 .f32) :
    sout0_A_1 c i arg2 harg2 arg3 harg3 arg4 harg4 arg5 harg5 arg6 harg6 arg7 harg7 arg8 harg8 arg9 harg9 arg10 harg10 hc0 hc1 x0 x1 x2 x3 = Step.lNew x0 x1 x2 (k0_pay9 x0) k0_pay6 k0_pay7 := by
  -- The update's store spans the buffer and hides the reset beneath it; what the update reads of a buffer just reset is the reset's value, and of the squared norms the value just computed.
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, View.ld_unit_zero (S := S1024x1024) hz, View.ld_unit_zero (S := S1x1024) hz, View.readCov_unit_zero (S := S1024x1) _ hz]
  rfl

/-- At a first block the squared norms of the tile's query rows are computed and kept. -/
theorem sout0_A_2_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (x0 : Vec F S1024x1024 .f32) (x1 : Vec F S1024x1024 .f32) (x2 : Vec F S1x1024 .f32) (x3 : Vec F S1024x128 .f32) :
    sout0_A_2 c i arg2 harg2 arg3 harg3 arg4 harg4 arg5 harg5 arg6 harg6 arg7 harg7 arg8 harg8 arg9 harg9 arg10 harg10 hc0 hc1 x0 x1 x2 x3 = k0_pay9 x0 := by
  -- The buffer's single store spans it, so it holds that store's payload: the row sums of the query block's squares.
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz]
  simp only [View.readAt_eq_ld, harg2.read_unread, View.ld_unit_zero (S := S1024x1024) hz]

/-- At a first block the numerator is the block's weighted sum of values (over the zero the case has just stored). -/
theorem sout0_A_3_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (x0 : Vec F S1024x1024 .f32) (x1 : Vec F S1024x1024 .f32) (x2 : Vec F S1x1024 .f32) (x3 : Vec F S1024x128 .f32) :
    sout0_A_3 c i arg2 harg2 arg3 harg3 arg4 harg4 arg5 harg5 arg6 harg6 arg7 harg7 arg8 harg8 arg9 harg9 arg10 harg10 hc0 hc1 x0 x1 x2 x3 = Step.aNew x0 x1 x2 x3 (k0_pay9 x0) k0_pay6 k0_pay8 := by
  -- The update's store spans the buffer and hides the reset beneath it; what the update reads of a buffer just reset is the reset's value, and of the squared norms the value just computed.
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x128) hz]
  simp only [View.readAt_eq_ld, harg2.read_unread, harg3.read_unread, harg4.read_unread, harg5.read_unread, View.ld_unit_zero (S := S1024x1024) hz, View.ld_unit_zero (S := S1x1024) hz, View.ld_unit_zero (S := S1024x128) hz, View.readCov_unit_zero (S := S1024x1) _ hz, View.readCov_unit_zero (S := S1024x128) _ hz]
  rfl

/-- At a middle block the running maximum is updated from the one the block before left. -/
theorem sout0_B_0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : ¬cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = Step.mNew x0 x1 x2 xs2 xs0 := by
  -- The buffer's single store spans it, so it holds that store's payload; each block the payload reads is a whole buffer's contents.
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg7.read_unread, harg9.read_unread, View.ld_unit_zero (S := S1024x1024) hz, View.ld_unit_zero (S := S1x1024) hz, View.ld_unit_zero (S := S1024x1) hz]
  rfl

/-- At a middle block the denominator is rescaled and the block's sum of exponentials added. -/
theorem sout0_B_1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : ¬cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_B_1 c i arg2 harg2 arg3 harg3 arg4 harg4 arg5 harg5 arg6 harg6 arg7 harg7 arg8 harg8 arg9 harg9 arg10 harg10 hc0 hc1 x0 x1 x2 x3 xs0 xs1 xs2 xs3 = Step.lNew x0 x1 x2 xs2 xs0 xs1 := by
  -- The buffer's single store spans it, so it holds that store's payload; each block the payload reads is a whole buffer's contents.
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread, harg9.read_unread, View.ld_unit_zero (S := S1024x1024) hz, View.ld_unit_zero (S := S1x1024) hz, View.ld_unit_zero (S := S1024x1) hz]
  rfl

/-- A middle block leaves the squared norms as they were. -/
theorem sout0_B_2_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : ¬cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_B_2 c i arg2 harg2 arg3 harg3 arg4 harg4 arg5 harg5 arg6 harg6 arg7 harg7 arg8 harg8 arg9 harg9 arg10 harg10 hc0 hc1 x0 x1 x2 x3 xs0 xs1 xs2 xs3 = xs2 := by
  -- Nothing is stored into the squared norms here: the buffer keeps its prior contents.
  rfl

/-- At a middle block the numerator is rescaled and the block's weighted sum of values added. -/
theorem sout0_B_3_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : ¬cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_B_3 c i arg2 harg2 arg3 harg3 arg4 harg4 arg5 harg5 arg6 harg6 arg7 harg7 arg8 harg8 arg9 harg9 arg10 harg10 hc0 hc1 x0 x1 x2 x3 xs0 xs1 xs2 xs3 = Step.aNew x0 x1 x2 x3 xs2 xs0 xs3 := by
  -- The buffer's single store spans it, so it holds that store's payload; each block the payload reads is a whole buffer's contents.
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg7.read_unread, harg9.read_unread, harg10.read_unread, View.ld_unit_zero (S := S1024x1024) hz, View.ld_unit_zero (S := S1x1024) hz, View.ld_unit_zero (S := S1024x1) hz, View.ld_unit_zero (S := S1024x128) hz]
  rfl

/-- At the last block the running maximum is updated as at a middle one. -/
theorem sout0_C_0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = Step.mNew x0 x1 x2 xs2 xs0 := by
  -- The buffer's single store spans it, so it holds that store's payload; each block the payload reads is a whole buffer's contents.
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg7.read_unread, harg9.read_unread, View.ld_unit_zero (S := S1024x1024) hz, View.ld_unit_zero (S := S1x1024) hz, View.ld_unit_zero (S := S1024x1) hz]
  rfl

/-- At the last block the denominator is updated as at a middle one. -/
theorem sout0_C_1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_C_1 c i arg2 harg2 arg3 harg3 arg4 harg4 arg5 harg5 arg6 harg6 arg7 harg7 arg8 harg8 arg9 harg9 arg10 harg10 hc0 hc1 x0 x1 x2 x3 xs0 xs1 xs2 xs3 = Step.lNew x0 x1 x2 xs2 xs0 xs1 := by
  -- The buffer's single store spans it, so it holds that store's payload; each block the payload reads is a whole buffer's contents.
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread, harg9.read_unread, View.ld_unit_zero (S := S1024x1024) hz, View.ld_unit_zero (S := S1x1024) hz, View.ld_unit_zero (S := S1024x1) hz]
  rfl

/-- The last block leaves the squared norms as they were. -/
theorem sout0_C_2_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_C_2 c i arg2 harg2 arg3 harg3 arg4 harg4 arg5 harg5 arg6 harg6 arg7 harg7 arg8 harg8 arg9 harg9 arg10 harg10 hc0 hc1 x0 x1 x2 x3 xs0 xs1 xs2 xs3 = xs2 := by
  -- Nothing is stored into the squared norms here: the buffer keeps its prior contents.
  rfl

/-- At the last block the numerator is updated as at a middle one. -/
theorem sout0_C_3_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    sout0_C_3 c i arg2 harg2 arg3 harg3 arg4 harg4 arg5 harg5 arg6 harg6 arg7 harg7 arg8 harg8 arg9 harg9 arg10 harg10 hc0 hc1 x0 x1 x2 x3 xs0 xs1 xs2 xs3 = Step.aNew x0 x1 x2 x3 xs2 xs0 xs3 := by
  -- The buffer's single store spans it, so it holds that store's payload; each block the payload reads is a whole buffer's contents.
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg7.read_unread, harg9.read_unread, harg10.read_unread, View.ld_unit_zero (S := S1024x1024) hz, View.ld_unit_zero (S := S1x1024) hz, View.ld_unit_zero (S := S1024x1) hz, View.ld_unit_zero (S := S1024x128) hz]
  rfl

/-- At the last block the output tile is the updated numerator over the updated denominator. -/
theorem out0_C_4_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond0_0 i) (hc1 : cond0_1 i) (x0 : Vec F S1024x1024 .f32) (x1 : Vec F S1024x1024 .f32) (x2 : Vec F S1x1024 .f32) (x3 : Vec F S1024x128 .f32) (xs0 : Vec F S1024x1 .f32) (xs1 : Vec F S1024x1 .f32) (xs2 : Vec F S1024x1 .f32) (xs3 : Vec F S1024x128 .f32) :
    out0_C_4 c i arg2 harg2 arg3 harg3 arg4 harg4 arg5 harg5 arg6 harg6 arg7 harg7 arg8 harg8 arg9 harg9 arg10 harg10 hc0 hc1 x0 x1 x2 x3 xs0 xs1 xs2 xs3 = Step.outNew x0 x1 x2 x3 xs2 xs0 xs1 xs3 := by
  -- The tile's single store spans it, so it holds that store's payload: a quotient whose two operands are read
  -- back from the numerator and denominator buffers after their updates, hence are the updated values themselves.
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S1024x1024) hz, View.ld_unit_zero (S := S1x1024) hz, View.ld_unit_zero (S := S1024x1) hz, View.ld_unit_zero (S := S1024x128) hz, View.readCov_unit_zero (S := S1024x1) _ hz, View.readCov_unit_zero (S := S1024x128) _ hz]
  rfl

end Cert.KernelIdeal.Pieces

end
-- ==== Proof.PayReal.lean ====
/-
  The body's arithmetic on blocks of real numbers: each carried quantity's update, read entry by entry, is the
  real-number update of the online softmax.

  With the query block `Xb`, the key block `Nb`, the keys' squared norms `S`, the queries' squared norms `Q` all
  real, the block's logits are `lgB Xb Nb S Q r s = −sqrt (max (Q r + S s − 2 ⟨Xb r, Nb s⟩) 0)`.
-/
import proofs.«405029_j15169824489967_3_alg».proof.Proof.Step
import proofs.«405029_j15169824489967_3_alg».proof.Proof.Spec
import proofs.«405029_j15169824489967_3_alg».proof.Proof.LibEReal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayReal

open Cert.KernelIdeal Cert.KernelIdeal.Gen Cert.KernelIdeal.Step Cert.Nona Idealize.ShloMosaic Idealize.ShloMosaic.ValueIdx

/-! ## Reading the non-pointwise operations at explicit coordinates -/

section Reads
variable {α : Type}

/-- A vector `[a]` viewed as a column `[a, 1]` reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a reduction along the lanes inserts: row `r`, lane `k`. -/
private theorem lift_lane (h : S1024x1024.Reduces [1] S1024) (r : Fin 1024) (k : Fin 1024) :
    h.lift (ix1 r) k = ix2 r k := by
  funext c
  apply Fin.ext
  match c with
  | ⟨0, _⟩ => rfl
  | ⟨1, _⟩ => rfl

/-- A column `[a, 1]` broadcast along the lanes reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential, lane by lane. -/
private theorem exp_apply {s : Shape} {φ : FTy} (a : FVec Ideal s φ) (i : s.Idx) : exp a i = Ideal.exp (a i) := rfl

end Reads

/-! ## The two products -/

section Dots

/-- The logits' product: the output's row on the left operand's axis 0 … -/
private theorem lhs_qk_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- … the contracted coordinate on its axis 1 … -/
private theorem lhs_qk_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- … the contracted coordinate on the right operand's axis 0 … -/
private theorem rhs_qk_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and the output's column on its axis 1. -/
private theorem rhs_qk_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The logits' product into a zero accumulator, entry `(r, s)`: the sum over the contracted coordinate. -/
private theorem matmul_qk_apply (lhs rhs : FVec Ideal S1024x1024 .bf16) (r s : Fin 1024) :
    matmul dot_S1024x1024_S1024x1024_S1024x1024_1_0_0_1_n_n none lhs rhs (constant S1024x1024 .f32 0x00000000#32) (ix2 r s)
      = ∑ k : Fin 1024, lhs (ix2 r k) * rhs (ix2 k s) := by
  show FloatOps.matmul _ _ _ _ _ _ = _
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r s)
      ((contrEquiv1 dot_S1024x1024_S1024x1024_S1024x1024_1_0_0_1_n_n 1024 rfl rfl).symm k) = ix2 r k :=
    funext fun a => Fin.ext (by
      match a with
      | ⟨0, _⟩ => exact lhs_qk_0 _ _
      | ⟨1, _⟩ => exact (lhs_qk_1 _ _).trans hk)
  have er : dot_S1024x1024_S1024x1024_S1024x1024_1_0_0_1_n_n.rhsIdx (ix2 r s)
      ((contrEquiv1 dot_S1024x1024_S1024x1024_S1024x1024_1_0_0_1_n_n 1024 rfl rfl).symm k) = ix2 k s :=
    funext fun a => Fin.ext (by
      match a with
      | ⟨0, _⟩ => exact (rhs_qk_0 _ _).trans hk
      | ⟨1, _⟩ => exact rhs_qk_1 _ _)
  rw [el, er]

/-- The weighted sum of the values: the output's row on the left operand's axis 0 … -/
private theorem lhs_pv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
/-- … the contracted coordinate on its axis 1 … -/
private theorem lhs_pv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- … the contracted coordinate on the right operand's axis 0 … -/
private theorem rhs_pv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- … and the output's column on its axis 1. -/
private theorem rhs_pv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The weights times the values into a zero accumulator, entry `(r, c)`: the sum over the block's columns. -/
private theorem matmul_pv_apply (lhs : FVec Ideal S1024x1024 .bf16) (rhs : FVec Ideal S1024x128 .bf16)
    (r : Fin 1024) (c : Fin 128) :
    matmul dot_S1024x1024_S1024x128_S1024x128_1_0_0_1_n_n none lhs rhs (constant S1024x128 .f32 0x00000000#32) (ix2 r c)
      = ∑ k : Fin 1024, lhs (ix2 r k) * rhs (ix2 k c) := by
  show FloatOps.matmul _ _ _ _ _ _ = _
  rw [Ideal.matmul_constant_zero_apply,
    ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r c)
      ((contrEquiv1 dot_S1024x1024_S1024x128_S1024x128_1_0_0_1_n_n 1024 rfl rfl).symm k) = ix2 r k :=
    funext fun a => Fin.ext (by
      match a with
      | ⟨0, _⟩ => exact lhs_pv_0 _ _
      | ⟨1, _⟩ => exact (lhs_pv_1 _ _).trans hk)
  have er : dot_S1024x1024_S1024x128_S1024x128_1_0_0_1_n_n.rhsIdx (ix2 r c)
      ((contrEquiv1 dot_S1024x1024_S1024x128_S1024x128_1_0_0_1_n_n 1024 rfl rfl).symm k) = ix2 k c :=
    funext fun a => Fin.ext (by
      match a with
      | ⟨0, _⟩ => exact (rhs_pv_0 _ _).trans hk
      | ⟨1, _⟩ => exact rhs_pv_1 _ _)
  rw [el, er]

end Dots

/-! ## The starting values -/

/-- The maximum starts at −∞ … -/
private theorem pay6_apply (j : S1024x1.Idx) : k0_pay6 (F := Ideal) j = (⊥ : EReal) := by
  unfold k0_pay6
  rw [shapeCast_self]
  exact Cert.LibEReal.ofBits_neg_inf
/-- … the denominator at 0 … -/
private theorem pay7_apply (j : S1024x1.Idx) : k0_pay7 (F := Ideal) j = (0 : EReal) := by
  unfold k0_pay7
  rw [shapeCast_self]
  exact Ideal.ofBits_zero_f32
/-- … and the numerator at 0. -/
private theorem pay8_apply (j : S1024x128.Idx) : k0_pay8 (F := Ideal) j = (0 : EReal) := by
  unfold k0_pay8
  rw [shapeCast_self]
  exact Ideal.ofBits_zero_f32

variable (Xb Nb : Fin 1024 → Fin 1024 → ℝ) (S Q μ lam : Fin 1024 → ℝ) (Yb α : Fin 1024 → Fin 128 → ℝ)

/-- The block's logits, entry by entry: minus the distance in its expanded quadratic form. -/
private theorem pay11_real (r s : Fin 1024) :
    k0_pay11 (F := Ideal) (up2 Xb) (up2 Nb) (upR S) (upC Q) (ix2 r s) = ((lgB Xb Nb S Q r s : ℝ) : EReal) := by
  unfold k0_pay11
  have hdot : matmul dot_S1024x1024_S1024x1024_S1024x1024_1_0_0_1_n_n none
      (truncf (F := Ideal) .bf16 (up2 Xb) bitsLt_bf16_f32)
      (transpose S1024x1024 [1, 0] (truncf (F := Ideal) .bf16 (up2 Nb) bitsLt_bf16_f32) transposes_S1024x1024_p1_0_S1024x1024)
      (constant S1024x1024 .f32 0x00000000#32) (ix2 r s) = ((∑ k, Xb r k * Nb s k : ℝ) : EReal) := by
    rw [matmul_qk_apply, ← Cert.LibEReal.coe_sum]
    refine Finset.sum_congr rfl fun k _ => ?_
    rw [transpose_ix2_apply]
    exact (EReal.coe_mul _ _).symm
  have hq : broadcastTo S1024x1024 (upC Q) broadcasts_S1024x1_S1024x1024 (ix2 r s) = ((Q r : ℝ) : EReal) :=
    broadcastTo_a1_ab_apply _ _ r s
  have hs : broadcastTo S1024x1024 (shapeCast S1x1024 (upR S) shapeCasts_S1x1024_S1x1024) broadcasts_S1x1024_S1024x1024 (ix2 r s)
      = ((S s : ℝ) : EReal) := by
    rw [shapeCast_self]; exact broadcastTo_1b_ab_apply _ _ r s
  show Ideal.ofBits .f32 0x00000000#32
      - Ideal.sqrt (max
          ((broadcastTo S1024x1024 (upC Q) broadcasts_S1024x1_S1024x1024 (ix2 r s)
              + broadcastTo S1024x1024 (shapeCast S1x1024 (upR S) shapeCasts_S1x1024_S1x1024)
                  broadcasts_S1x1024_S1024x1024 (ix2 r s))
            - Ideal.ofBits .f32 0x40000000#32
              * matmul dot_S1024x1024_S1024x1024_S1024x1024_1_0_0_1_n_n none
                  (truncf (F := Ideal) .bf16 (up2 Xb) bitsLt_bf16_f32)
                  (transpose S1024x1024 [1, 0] (truncf (F := Ideal) .bf16 (up2 Nb) bitsLt_bf16_f32)
                    transposes_S1024x1024_p1_0_S1024x1024)
                  (constant S1024x1024 .f32 0x00000000#32) (ix2 r s))
          (Ideal.ofBits .f32 0x00000000#32))
      = ((lgB Xb Nb S Q r s : ℝ) : EReal)
  rw [hdot, hq, hs, Ideal.ofBits_zero_f32, Cert.LibEReal.ofBits_two, ← EReal.coe_add, ← EReal.coe_mul, ← EReal.coe_sub,
    ← EReal.coe_zero, Cert.LibEReal.max_coe, Cert.LibEReal.sqrt_coe (le_max_right _ _), ← EReal.coe_sub, zero_sub]
  rfl

/-- The block's row maximum of the logits. -/
private theorem rowmax_real (h : S1024x1024.Reduces [1] S1024) (hφ : FKind.Formats .f32)
    (hacc : (0xFF800000#32 : BitVec FTy.f32.bits) = FKind.maximumf.neutral .f32 hφ) (hc : S1024.ShapeCasts S1024x1)
    (r : Fin 1024) (u : Fin 1) :
    shapeCast S1024x1 (multiReduction (F := Ideal) .maximumf [1] S1024
        (k0_pay11 (F := Ideal) (up2 Xb) (up2 Nb) (upR S) (upC Q)) 0xFF800000#32 h hφ hacc) hc (ix2 r u)
      = ((bmax (lgB Xb Nb S Q r) : ℝ) : EReal) := by
  refine (shapeCast_a_a1_apply _ _ r u).trans ?_
  refine (Ideal.multiReduction_maximumf_single _ _ _ _ _ (ix1 r)).trans ?_
  have e : (k0_pay11 (F := Ideal) (up2 Xb) (up2 Nb) (upR S) (upC Q)) ∘ h.lift (ix1 r)
      = fun k => ((lgB Xb Nb S Q r k : ℝ) : EReal) := by
    funext k
    exact (congrArg _ (lift_lane h r k)).trans (pay11_real Xb Nb S Q r k)
  rw [e]
  show Finset.fold max (Ideal.ofBits .f32 0xFF800000#32) _ _ = _
  rw [Cert.LibEReal.ofBits_neg_inf]
  exact Cert.LibEReal.fold_max_bot_coe (ι := Fin 1024) _

/-- The new running maximum over a real one. -/
private theorem pay12_real (r : Fin 1024) (u : Fin 1) :
    k0_pay12 (F := Ideal) (up2 Xb) (up2 Nb) (upR S) (upC Q) (upC μ) (ix2 r u)
      = ((max (μ r) (bmax (lgB Xb Nb S Q r)) : ℝ) : EReal) := by
  unfold k0_pay12
  refine (maximumf_apply _ _ _).trans ?_
  refine (congrArg (max _) (rowmax_real Xb Nb S Q _ _ _ _ r u)).trans ?_
  exact Cert.LibEReal.max_coe _ _

/-- The new running maximum over −∞. -/
private theorem pay12_init (r : Fin 1024) (u : Fin 1) :
    k0_pay12 (F := Ideal) (up2 Xb) (up2 Nb) (upR S) (upC Q) (k0_pay6 (F := Ideal)) (ix2 r u)
      = ((bmax (lgB Xb Nb S Q r) : ℝ) : EReal) := by
  unfold k0_pay12
  refine (maximumf_apply _ _ _).trans ?_
  refine (congrArg₂ max (pay6_apply _) (rowmax_real Xb Nb S Q _ _ _ _ r u)).trans ?_
  exact max_eq_right bot_le

/-- The block's weights `exp (logit − new maximum)`, whatever the maximum before, once the new one is real. -/
private theorem pay13_of (mp : Vec Ideal S1024x1 .f32) (m : Fin 1024 → ℝ)
    (hm : ∀ (r : Fin 1024) (u : Fin 1),
      k0_pay12 (F := Ideal) (up2 Xb) (up2 Nb) (upR S) (upC Q) mp (ix2 r u) = ((m r : ℝ) : EReal))
    (r s : Fin 1024) :
    k0_pay13 (F := Ideal) (up2 Xb) (up2 Nb) (upR S) (upC Q) mp (ix2 r s)
      = ((Real.exp (lgB Xb Nb S Q r s - m r) : ℝ) : EReal) := by
  unfold k0_pay13
  refine (exp_apply _ _).trans ?_
  refine (congrArg Ideal.exp ((subf_apply _ _ _).trans (congrArg₂ (· - ·) (pay11_real Xb Nb S Q r s)
    ((broadcastTo_a1_ab_apply _ _ r s).trans (hm r 0))))).trans ?_
  rw [← EReal.coe_sub]
  exact Cert.LibEReal.exp_coe _

/-- The rescaling factor `exp (old maximum − new maximum)` between two real maxima. -/
private theorem pay1_real (mp mn : Vec Ideal S1024x1 .f32) (a b : ℝ) (j : S1024x1.Idx)
    (ha : mp j = ((a : ℝ) : EReal)) (hb : mn j = ((b : ℝ) : EReal)) :
    k0_pay1 (F := Ideal) mp mn j = ((Real.exp (a - b) : ℝ) : EReal) := by
  unfold k0_pay1
  refine (exp_apply _ _).trans ?_
  refine (congrArg Ideal.exp ((subf_apply _ _ _).trans (congrArg₂ (· - ·) ha hb))).trans ?_
  rw [← EReal.coe_sub]
  exact Cert.LibEReal.exp_coe _

/-- The rescaling factor from −∞ to a real maximum: `exp (−∞) = 0`. -/
private theorem pay1_init (mp mn : Vec Ideal S1024x1 .f32) (b : ℝ) (j : S1024x1.Idx)
    (ha : mp j = (⊥ : EReal)) (hb : mn j = ((b : ℝ) : EReal)) :
    k0_pay1 (F := Ideal) mp mn j = (0 : EReal) := by
  unfold k0_pay1
  refine (exp_apply _ _).trans ?_
  refine (congrArg Ideal.exp ((subf_apply _ _ _).trans (congrArg₂ (· - ·) ha hb))).trans ?_
  rw [EReal.bot_sub]
  exact Cert.LibEReal.exp_bot

/-- A row's sum of real weights, as a column entry. -/
private theorem rowsum_real (v : FVec Ideal S1024x1024 .f32) (g : Fin 1024 → Fin 1024 → ℝ)
    (hv : ∀ r k : Fin 1024, v (ix2 r k) = ((g r k : ℝ) : EReal))
    (h : S1024x1024.Reduces [1] S1024) (hφ : FKind.Formats .f32)
    (hacc : (0x00000000#32 : BitVec FTy.f32.bits) = FKind.add.neutral .f32 hφ) (hc : S1024.ShapeCasts S1024x1)
    (r : Fin 1024) (u : Fin 1) :
    shapeCast S1024x1 (multiReduction (F := Ideal) .add [1] S1024 v 0x00000000#32 h hφ hacc) hc (ix2 r u)
      = ((∑ k, g r k : ℝ) : EReal) := by
  refine (shapeCast_a_a1_apply _ _ r u).trans ?_
  refine (Ideal.multiReduction_add_single _ _ _ _ _ (ix1 r)).trans ?_
  refine Eq.trans (Finset.sum_congr rfl fun k _ => ?_) (Cert.LibEReal.coe_sum Finset.univ fun k => g r k)
  exact (congrArg _ (lift_lane _ r k)).trans (hv r k)

/-- The block's weights times the value block, entry `(r, c)`. -/
private theorem weighted_real (mp : Vec Ideal S1024x1 .f32) (m : Fin 1024 → ℝ)
    (hm : ∀ (r : Fin 1024) (u : Fin 1),
      k0_pay12 (F := Ideal) (up2 Xb) (up2 Nb) (upR S) (upC Q) mp (ix2 r u) = ((m r : ℝ) : EReal))
    (r : Fin 1024) (c : Fin 128) :
    matmul dot_S1024x1024_S1024x128_S1024x128_1_0_0_1_n_n none
        (truncf (F := Ideal) .bf16 (k0_pay13 (F := Ideal) (up2 Xb) (up2 Nb) (upR S) (upC Q) mp) bitsLt_bf16_f32)
        (truncf (F := Ideal) .bf16 (up2 Yb) bitsLt_bf16_f32)
        (constant S1024x128 .f32 0x00000000#32) (ix2 r c)
      = ((∑ s, Real.exp (lgB Xb Nb S Q r s - m r) * Yb s c : ℝ) : EReal) := by
  refine (matmul_pv_apply _ _ r c).trans ?_
  refine Eq.trans (Finset.sum_congr rfl fun k _ => ?_)
    (Cert.LibEReal.coe_sum Finset.univ fun k => Real.exp (lgB Xb Nb S Q r k - m r) * Yb k c)
  refine (congrArg₂ (· * ·)
    ((truncf_apply (φ := .f32) (ψ := .bf16) (k0_pay13 (F := Ideal) (up2 Xb) (up2 Nb) (upR S) (upC Q) mp)
        bitsLt_bf16_f32 (ix2 r k)).trans (pay13_of Xb Nb S Q mp m hm r k))
    ((truncf_apply (φ := .f32) (ψ := .bf16) (s := S1024x128) (up2 Yb) bitsLt_bf16_f32 (ix2 k c)).trans
      (rfl : up2 Yb (ix2 k c) = ((Yb k c : ℝ) : EReal)))).trans ?_
  exact (EReal.coe_mul _ _).symm

/-- The tile's squared row norms. -/
theorem qsq_real : k0_pay9 (F := Ideal) (up2 Xb) = upC (sq Xb) := by
  funext j
  obtain ⟨r, s, rfl⟩ : ∃ (r : Fin 1024) (s : Fin 1), j = ix2 r s := ⟨j 0, j 1, eq_ix2 j⟩
  unfold k0_pay9
  rw [shapeCast_self]
  refine (shapeCast_a_a1_apply _ _ r s).trans ?_
  refine (Ideal.multiReduction_add_single _ _ _ _ _ (ix1 r)).trans ?_
  refine Eq.trans (Finset.sum_congr rfl fun k _ => ?_)
    (Cert.LibEReal.coe_sum Finset.univ fun k => Xb r k * Xb r k)
  exact (congrArg _ (lift_lane _ r k)).trans (EReal.coe_mul _ _).symm

/-- The running maximum at a first block: over −∞, the block's row maximum. -/
theorem mNew_init :
    mNew (F := Ideal) (up2 Xb) (up2 Nb) (upR S) (upC Q) (k0_pay6 (F := Ideal))
      = upC (fun r => bmax (lgB Xb Nb S Q r)) := by
  funext j
  obtain ⟨r, s, rfl⟩ : ∃ (r : Fin 1024) (s : Fin 1), j = ix2 r s := ⟨j 0, j 1, eq_ix2 j⟩
  unfold mNew k0_pay2
  rw [shapeCast_self]
  exact pay12_init Xb Nb S Q r s

/-- The running maximum at a later block. -/
theorem mNew_real :
    mNew (F := Ideal) (up2 Xb) (up2 Nb) (upR S) (upC Q) (upC μ)
      = upC (fun r => max (μ r) (bmax (lgB Xb Nb S Q r))) := by
  funext j
  obtain ⟨r, s, rfl⟩ : ∃ (r : Fin 1024) (s : Fin 1), j = ix2 r s := ⟨j 0, j 1, eq_ix2 j⟩
  unfold mNew k0_pay2
  rw [shapeCast_self]
  exact pay12_real Xb Nb S Q μ r s

/-- The denominator at a first block: `exp (−∞) · 0` is nothing, the block's sum remains. -/
theorem lNew_init :
    lNew (F := Ideal) (up2 Xb) (up2 Nb) (upR S) (upC Q) (k0_pay6 (F := Ideal)) (k0_pay7 (F := Ideal))
      = upC (fun r => ∑ s, Real.exp (lgB Xb Nb S Q r s - bmax (lgB Xb Nb S Q r))) := by
  funext j
  obtain ⟨r, u, rfl⟩ : ∃ (r : Fin 1024) (u : Fin 1), j = ix2 r u := ⟨j 0, j 1, eq_ix2 j⟩
  unfold lNew k0_pay3
  rw [shapeCast_self]
  refine (addf_apply _ _ _).trans ?_
  refine (congrArg₂ (· + ·)
    ((mulf_apply _ _ _).trans (congrArg₂ (· * ·)
      (pay1_init _ _ _ _ (pay6_apply _) (pay12_init Xb Nb S Q r u)) (pay7_apply _)))
    (rowsum_real _ (fun r s => Real.exp (lgB Xb Nb S Q r s - bmax (lgB Xb Nb S Q r)))
      (pay13_of Xb Nb S Q _ _ (pay12_init Xb Nb S Q)) _ _ _ _ r u)).trans ?_
  rw [mul_zero, zero_add]
  rfl

/-- The denominator at a later block. -/
theorem lNew_real :
    lNew (F := Ideal) (up2 Xb) (up2 Nb) (upR S) (upC Q) (upC μ) (upC lam)
      = upC (fun r => Real.exp (μ r - max (μ r) (bmax (lgB Xb Nb S Q r))) * lam r
          + ∑ s, Real.exp (lgB Xb Nb S Q r s - max (μ r) (bmax (lgB Xb Nb S Q r)))) := by
  funext j
  obtain ⟨r, u, rfl⟩ : ∃ (r : Fin 1024) (u : Fin 1), j = ix2 r u := ⟨j 0, j 1, eq_ix2 j⟩
  unfold lNew k0_pay3
  rw [shapeCast_self]
  refine (addf_apply _ _ _).trans ?_
  refine (congrArg₂ (· + ·)
    ((mulf_apply _ _ _).trans (congrArg₂ (· * ·)
      (pay1_real _ _ (μ r) _ _ rfl (pay12_real Xb Nb S Q μ r u)) (rfl : upC lam (ix2 r u) = ((lam r : ℝ) : EReal))))
    (rowsum_real _ (fun r s => Real.exp (lgB Xb Nb S Q r s - max (μ r) (bmax (lgB Xb Nb S Q r))))
      (pay13_of Xb Nb S Q _ _ (pay12_real Xb Nb S Q μ)) _ _ _ _ r u)).trans ?_
  show _ * ((lam r : ℝ) : EReal) + _ = _
  rw [← EReal.coe_mul, ← EReal.coe_add]
  rfl

/-- The numerator at a first block. -/
theorem aNew_init :
    aNew (F := Ideal) (up2 Xb) (up2 Nb) (upR S) (up2 Yb) (upC Q) (k0_pay6 (F := Ideal)) (k0_pay8 (F := Ideal))
      = up2 (fun r c => ∑ s, Real.exp (lgB Xb Nb S Q r s - bmax (lgB Xb Nb S Q r)) * Yb s c) := by
  funext j
  obtain ⟨r, c, rfl⟩ : ∃ (r : Fin 1024) (c : Fin 128), j = ix2 r c := ⟨j 0, j 1, eq_ix2 j⟩
  unfold aNew k0_pay4 k0_pay10
  rw [shapeCast_self]
  refine (addf_apply _ _ _).trans ?_
  refine (congrArg₂ (· + ·)
    ((mulf_apply _ _ _).trans (congrArg₂ (· * ·)
      ((broadcastTo_a1_ab_apply _ _ r c).trans
        (pay1_init _ _ _ _ (pay6_apply _) (pay12_init Xb Nb S Q r 0))) (pay8_apply _)))
    (weighted_real Xb Nb S Q Yb _ _ (pay12_init Xb Nb S Q) r c)).trans ?_
  rw [mul_zero, zero_add]
  rfl

/-- The numerator at a later block. -/
theorem aNew_real :
    aNew (F := Ideal) (up2 Xb) (up2 Nb) (upR S) (up2 Yb) (upC Q) (upC μ) (up2 α)
      = up2 (fun r c => Real.exp (μ r - max (μ r) (bmax (lgB Xb Nb S Q r))) * α r c
          + ∑ s, Real.exp (lgB Xb Nb S Q r s - max (μ r) (bmax (lgB Xb Nb S Q r))) * Yb s c) := by
  funext j
  obtain ⟨r, c, rfl⟩ : ∃ (r : Fin 1024) (c : Fin 128), j = ix2 r c := ⟨j 0, j 1, eq_ix2 j⟩
  unfold aNew k0_pay4 k0_pay10
  rw [shapeCast_self]
  refine (addf_apply _ _ _).trans ?_
  refine (congrArg₂ (· + ·)
    ((mulf_apply _ _ _).trans (congrArg₂ (· * ·)
      ((broadcastTo_a1_ab_apply _ _ r c).trans
        (pay1_real _ _ (μ r) _ _ rfl (pay12_real Xb Nb S Q μ r 0)))
      (rfl : up2 α (ix2 r c) = ((α r c : ℝ) : EReal))))
    (weighted_real Xb Nb S Q Yb _ _ (pay12_real Xb Nb S Q μ) r c)).trans ?_
  show _ * ((α r c : ℝ) : EReal) + _ = _
  rw [← EReal.coe_mul, ← EReal.coe_add]
  rfl

/-- The output tile: a real numerator over a nonzero real denominator. -/
theorem out_real (α' : Fin 1024 → Fin 128 → ℝ) (lam' : Fin 1024 → ℝ) (h : ∀ r, lam' r ≠ 0) :
    k0_pay5 (F := Ideal) (up2 α') (upC lam') = up2 (fun r c => α' r c / lam' r) := by
  funext j
  obtain ⟨r, c, rfl⟩ : ∃ (r : Fin 1024) (c : Fin 128), j = ix2 r c := ⟨j 0, j 1, eq_ix2 j⟩
  unfold k0_pay5
  refine (divf_apply _ _ _).trans ?_
  refine (congrArg (Ideal.div _) (broadcastTo_a1_ab_apply _ _ r c)).trans ?_
  exact Cert.LibEReal.div_coe_coe (α' r c) (h r)

end Cert.KernelIdeal.PayReal

end
-- ==== Proof.KernelFinal.lean ====
/-
  What the kernel's output array holds after the run, on real inputs: entry `(i, c)` is the blockwise
  softmax-weighted sum `onlineOut X N Y i c`.

  The grid visits 4 query tiles × 8 key blocks, tile by tile. Along a tile the four carried buffers hold, for each
  of its 1024 query rows, the running maximum of the logits seen so far, the denominator `Σ exp (logit − maximum)`,
  the row's squared norm, and the numerator `Σ exp (logit − maximum) · value`: the invariant `Inv`, proved by
  induction along the grid — a first block starts them from the block alone, every later block rescales by
  `exp (old maximum − new maximum)` and adds its own terms. At a tile's last block the output tile is numerator over
  denominator, and the four tiles written back there cover the output array.
-/
import proofs.«405029_j15169824489967_3_alg».proof.Proof.Gen.KernelIdeal.Value
import proofs.«405029_j15169824489967_3_alg».proof.Proof.Blocks
import proofs.«405029_j15169824489967_3_alg».proof.Proof.Pieces
import proofs.«405029_j15169824489967_3_alg».proof.Proof.PayReal
import proofs.«405029_j15169824489967_3_alg».proof.Proof.Spec
import proofs.«405029_j15169824489967_3_alg».proof.Proof.Online

set_option maxRecDepth 16384

noncomputable section

open scoped BigOperators

namespace Cert.KernelIdeal.Final

open Cert.KernelIdeal Cert.KernelIdeal.Gen Cert.KernelIdeal.Step Cert.Nona Idealize.ShloMosaic Idealize.ShloMosaic.TcCoe
open Idealize.ShloMosaic.ValueIdx Idealize.SL.Sem

variable (m : (ℓ : Loc nD τ sig) → Buf (Elt Ideal) ℓ) (c : Dev nD)
variable (X : Fin 4096 → Fin 1024 → ℝ) (N : Fin 8192 → Fin 1024 → ℝ) (Y : Fin 8192 → Fin 128 → ℝ)

/-- After point `n` (tile `n / 8`, block `n % 8`) the four carried buffers hold, row by row of the tile, the running
    maximum, denominator, squared norm and numerator of that row's online softmax after block `n % 8`. -/
def Inv (n : ℕ) (hn : n < cfg0.N) : Prop :=
  (outsAt0 m c n hn).2.1 = upC (fun r : Fin 1024 => Mx (gRow X N (iOf (n / 8) r)) (n % 8))
  ∧ (outsAt0 m c n hn).2.2.1 = upC (fun r : Fin 1024 => Lx (gRow X N (iOf (n / 8) r)) (n % 8))
  ∧ (outsAt0 m c n hn).2.2.2.1 = upC (fun r : Fin 1024 => sq X (iOf (n / 8) r))
  ∧ (outsAt0 m c n hn).2.2.2.2 = up2 (fun (r : Fin 1024) (c' : Fin 128) => Ax (gRow X N (iOf (n / 8) r)) (yRow Y c') (n % 8))

/-- A block's logits from the tile's and the block's real rows are the row's logits of that block. -/
theorem lgB_eq (q b : ℕ) (r s : Fin 1024) :
    lgB (fun (r : Fin 1024) (k : Fin 1024) => X (iOf q r) k) (fun (s : Fin 1024) (k : Fin 1024) => N (jOf b s) k)
        (fun s : Fin 1024 => sq N (jOf b s)) (fun r : Fin 1024 => sq X (iOf q r)) r s
      = gRow X N (iOf q r) b s := rfl

section StepA
variable (hx : m ((c : Thread nD τ).loc main_arg0) = up2 X) (hnn : m ((c : Thread nD τ).loc main_arg1) = up2 N)
  (hy : m ((c : Thread nD τ).loc main_arg2) = up2 Y)
include hx hnn hy

/-- A first block computes the norms and starts the three running quantities from the block alone. -/
theorem inv_A (n : ℕ) (hn : n < cfg0.N) (h0 : n % 8 = 0) (h1 : ¬n % 8 = 7) : Inv m c X N Y n hn := by
  have e := outsAt0_A m c ⟨n, hn⟩ h0 h1
  have eq0 := Blocks.blk0_real m c ⟨n, hn⟩ X hx
  have eq1 := Blocks.blk1_real m c ⟨n, hn⟩ N hnn
  have eq2 := Blocks.blk2_real m c ⟨n, hn⟩ N hnn
  have eq3 := Blocks.blk3_real m c ⟨n, hn⟩ Y hy
  refine ⟨?_, ?_, ?_, ?_⟩
  · show (outsAt0 m c n hn).2.1 = _
    rw [show outsAt0 m c n hn = _ from e]
    dsimp only
    rw [Pieces.sout0_A_0_eq, eq0, eq1, eq2, PayReal.qsq_real]
    refine (PayReal.mNew_init _ _ _ _).trans (congrArg upC (funext fun r => ?_))
    show _ = Mx (gRow X N (iOf (n / 8) r)) (n % 8)
    rw [h0]
    rfl
  · show (outsAt0 m c n hn).2.2.1 = _
    rw [show outsAt0 m c n hn = _ from e]
    dsimp only
    rw [Pieces.sout0_A_1_eq, eq0, eq1, eq2, PayReal.qsq_real]
    refine (PayReal.lNew_init _ _ _ _).trans (congrArg upC (funext fun r => ?_))
    show _ = Lx (gRow X N (iOf (n / 8) r)) (n % 8)
    rw [h0]
    rfl
  · show (outsAt0 m c n hn).2.2.2.1 = _
    rw [show outsAt0 m c n hn = _ from e]
    dsimp only
    rw [Pieces.sout0_A_2_eq, eq0, PayReal.qsq_real]
    rfl
  · show (outsAt0 m c n hn).2.2.2.2 = _
    rw [show outsAt0 m c n hn = _ from e]
    dsimp only
    rw [Pieces.sout0_A_3_eq, eq0, eq1, eq2, eq3, PayReal.qsq_real]
    refine (PayReal.aNew_init _ _ _ _ _).trans (congrArg up2 (funext fun r => funext fun c' => ?_))
    show _ = Ax (gRow X N (iOf (n / 8) r)) (yRow Y c') (n % 8)
    rw [h0]
    rfl

end StepA

section Steps
variable (hx : m ((c : Thread nD τ).loc main_arg0) = up2 X) (hnn : m ((c : Thread nD τ).loc main_arg1) = up2 N)
  (hy : m ((c : Thread nD τ).loc main_arg2) = up2 Y)
include hx hnn hy

/-- A middle block updates the three running quantities from what the block before left and keeps the norms. -/
theorem inv_B (n : ℕ) (hn : n + 1 < cfg0.N) (h0 : ¬(n + 1) % 8 = 0) (h1 : ¬(n + 1) % 8 = 7)
    (ih : Inv m c X N Y n (Nat.lt_of_succ_lt hn)) : Inv m c X N Y (n + 1) hn := by
  obtain ⟨ihm, ihl, ihq, iha⟩ := ih
  have e := outsAt0_B m c ⟨n + 1, hn⟩ h0 h1
  have eq0 := Blocks.blk0_real m c ⟨n + 1, hn⟩ X hx
  have eq1 := Blocks.blk1_real m c ⟨n + 1, hn⟩ N hnn
  have eq2 := Blocks.blk2_real m c ⟨n + 1, hn⟩ N hnn
  have eq3 := Blocks.blk3_real m c ⟨n + 1, hn⟩ Y hy
  have ihm' : (outsAt0 m c (n + 1 - 1) (Nat.lt_of_le_of_lt (Nat.sub_le _ _) hn)).2.1 = _ := ihm
  have ihl' : (outsAt0 m c (n + 1 - 1) (Nat.lt_of_le_of_lt (Nat.sub_le _ _) hn)).2.2.1 = _ := ihl
  have ihq' : (outsAt0 m c (n + 1 - 1) (Nat.lt_of_le_of_lt (Nat.sub_le _ _) hn)).2.2.2.1 = _ := ihq
  have iha' : (outsAt0 m c (n + 1 - 1) (Nat.lt_of_le_of_lt (Nat.sub_le _ _) hn)).2.2.2.2 = _ := iha
  have hd : (n + 1) / 8 = n / 8 := by omega
  have hm : (n + 1) % 8 = n % 8 + 1 := by omega
  refine ⟨?_, ?_, ?_, ?_⟩
  · show (outsAt0 m c (n + 1) hn).2.1 = _
    rw [show outsAt0 m c (n + 1) hn = _ from e]
    dsimp only
    rw [Pieces.sout0_B_0_eq, eq0, eq1, eq2, ihq', ihm']
    refine (PayReal.mNew_real _ _ _ _ _).trans (congrArg upC (funext fun r => ?_))
    show max _ _ = Mx (gRow X N (iOf ((n + 1) / 8) r)) ((n + 1) % 8)
    rw [hd, hm]
    rfl
  · show (outsAt0 m c (n + 1) hn).2.2.1 = _
    rw [show outsAt0 m c (n + 1) hn = _ from e]
    dsimp only
    rw [Pieces.sout0_B_1_eq, eq0, eq1, eq2, ihq', ihm', ihl']
    refine (PayReal.lNew_real _ _ _ _ _ _).trans (congrArg upC (funext fun r => ?_))
    show _ = Lx (gRow X N (iOf ((n + 1) / 8) r)) ((n + 1) % 8)
    rw [hd, hm]
    rfl
  · show (outsAt0 m c (n + 1) hn).2.2.2.1 = _
    rw [show outsAt0 m c (n + 1) hn = _ from e]
    dsimp only
    rw [Pieces.sout0_B_2_eq, ihq', hd]
  · show (outsAt0 m c (n + 1) hn).2.2.2.2 = _
    rw [show outsAt0 m c (n + 1) hn = _ from e]
    dsimp only
    rw [Pieces.sout0_B_3_eq, eq0, eq1, eq2, eq3, ihq', ihm', iha']
    refine (PayReal.aNew_real _ _ _ _ _ _ _).trans (congrArg up2 (funext fun r => funext fun c' => ?_))
    show _ = Ax (gRow X N (iOf ((n + 1) / 8) r)) (yRow Y c') ((n + 1) % 8)
    rw [hd, hm]
    rfl

/-- The last block updates the carried quantities exactly as a middle one does. -/
theorem inv_C (n : ℕ) (hn : n + 1 < cfg0.N) (h0 : ¬(n + 1) % 8 = 0) (h1 : (n + 1) % 8 = 7)
    (ih : Inv m c X N Y n (Nat.lt_of_succ_lt hn)) : Inv m c X N Y (n + 1) hn := by
  obtain ⟨ihm, ihl, ihq, iha⟩ := ih
  have e := outsAt0_C m c ⟨n + 1, hn⟩ h0 h1
  have eq0 := Blocks.blk0_real m c ⟨n + 1, hn⟩ X hx
  have eq1 := Blocks.blk1_real m c ⟨n + 1, hn⟩ N hnn
  have eq2 := Blocks.blk2_real m c ⟨n + 1, hn⟩ N hnn
  have eq3 := Blocks.blk3_real m c ⟨n + 1, hn⟩ Y hy
  have ihm' : (outsAt0 m c (n + 1 - 1) (Nat.lt_of_le_of_lt (Nat.sub_le _ _) hn)).2.1 = _ := ihm
  have ihl' : (outsAt0 m c (n + 1 - 1) (Nat.lt_of_le_of_lt (Nat.sub_le _ _) hn)).2.2.1 = _ := ihl
  have ihq' : (outsAt0 m c (n + 1 - 1) (Nat.lt_of_le_of_lt (Nat.sub_le _ _) hn)).2.2.2.1 = _ := ihq
  have iha' : (outsAt0 m c (n + 1 - 1) (Nat.lt_of_le_of_lt (Nat.sub_le _ _) hn)).2.2.2.2 = _ := iha
  have hd : (n + 1) / 8 = n / 8 := by omega
  have hm : (n + 1) % 8 = n % 8 + 1 := by omega
  refine ⟨?_, ?_, ?_, ?_⟩
  · show (outsAt0 m c (n + 1) hn).2.1 = _
    rw [show outsAt0 m c (n + 1) hn = _ from e]
    dsimp only
    rw [Pieces.sout0_C_0_eq, eq0, eq1, eq2, ihq', ihm']
    refine (PayReal.mNew_real _ _ _ _ _).trans (congrArg upC (funext fun r => ?_))
    show max _ _ = Mx (gRow X N (iOf ((n + 1) / 8) r)) ((n + 1) % 8)
    rw [hd, hm]
    rfl
  · show (outsAt0 m c (n + 1) hn).2.2.1 = _
    rw [show outsAt0 m c (n + 1) hn = _ from e]
    dsimp only
    rw [Pieces.sout0_C_1_eq, eq0, eq1, eq2, ihq', ihm', ihl']
    refine (PayReal.lNew_real _ _ _ _ _ _).trans (congrArg upC (funext fun r => ?_))
    show _ = Lx (gRow X N (iOf ((n + 1) / 8) r)) ((n + 1) % 8)
    rw [hd, hm]
    rfl
  · show (outsAt0 m c (n + 1) hn).2.2.2.1 = _
    rw [show outsAt0 m c (n + 1) hn = _ from e]
    dsimp only
    rw [Pieces.sout0_C_2_eq, ihq', hd]
  · show (outsAt0 m c (n + 1) hn).2.2.2.2 = _
    rw [show outsAt0 m c (n + 1) hn = _ from e]
    dsimp only
    rw [Pieces.sout0_C_3_eq, eq0, eq1, eq2, eq3, ihq', ihm', iha']
    refine (PayReal.aNew_real _ _ _ _ _ _ _).trans (congrArg up2 (funext fun r => funext fun c' => ?_))
    show _ = Ax (gRow X N (iOf ((n + 1) / 8) r)) (yRow Y c') ((n + 1) % 8)
    rw [hd, hm]
    rfl

/-- At the last block the output tile is numerator over denominator after the eighth block: the blockwise result. -/
theorem out_C (n : ℕ) (hn : n + 1 < cfg0.N) (h0 : ¬(n + 1) % 8 = 0) (h1 : (n + 1) % 8 = 7)
    (ih : Inv m c X N Y n (Nat.lt_of_succ_lt hn)) :
    (outsAt0 m c (n + 1) hn).1 = up2 (fun (r : Fin 1024) (c' : Fin 128) => onlineOut X N Y (iOf ((n + 1) / 8) r) c') := by
  obtain ⟨ihm, ihl, ihq, iha⟩ := ih
  have e := outsAt0_C m c ⟨n + 1, hn⟩ h0 h1
  have eq0 := Blocks.blk0_real m c ⟨n + 1, hn⟩ X hx
  have eq1 := Blocks.blk1_real m c ⟨n + 1, hn⟩ N hnn
  have eq2 := Blocks.blk2_real m c ⟨n + 1, hn⟩ N hnn
  have eq3 := Blocks.blk3_real m c ⟨n + 1, hn⟩ Y hy
  have ihm' : (outsAt0 m c (n + 1 - 1) (Nat.lt_of_le_of_lt (Nat.sub_le _ _) hn)).2.1 = _ := ihm
  have ihl' : (outsAt0 m c (n + 1 - 1) (Nat.lt_of_le_of_lt (Nat.sub_le _ _) hn)).2.2.1 = _ := ihl
  have ihq' : (outsAt0 m c (n + 1 - 1) (Nat.lt_of_le_of_lt (Nat.sub_le _ _) hn)).2.2.2.1 = _ := ihq
  have iha' : (outsAt0 m c (n + 1 - 1) (Nat.lt_of_le_of_lt (Nat.sub_le _ _) hn)).2.2.2.2 = _ := iha
  have hd : (n + 1) / 8 = n / 8 := by omega
  have h6 : n % 8 = 6 := by omega
  rw [show outsAt0 m c (n + 1) hn = _ from e]
  dsimp only
  rw [Pieces.out0_C_4_eq, eq0, eq1, eq2, eq3, ihq', ihm', ihl', iha']
  unfold Step.outNew
  rw [PayReal.aNew_real, PayReal.lNew_real]
  refine (PayReal.out_real _ _ (fun r => ?_)).trans (congrArg up2 (funext fun r => funext fun c' => ?_))
  · have hpk := Lx_pos (gRow X N (iOf (n / 8) r)) (n % 8)
    exact ne_of_gt (add_pos (mul_pos (Real.exp_pos _) hpk)
      (Finset.sum_pos (fun s _ => Real.exp_pos _) Finset.univ_nonempty))
  · show _ = Ax (gRow X N (iOf ((n + 1) / 8) r)) (yRow Y c') 7 / Lx (gRow X N (iOf ((n + 1) / 8) r)) 7
    rw [hd, h1, h6]
    rfl

/-- The invariant holds after every point: by induction along the grid, first, middle and last blocks in turn. -/
theorem inv_all : ∀ (n : ℕ) (hn : n < cfg0.N), Inv m c X N Y n hn
  | 0, hn => inv_A m c X N Y hx hnn hy 0 hn rfl (by decide)
  | n + 1, hn => by
    have ih := inv_all n (Nat.lt_of_succ_lt hn)
    by_cases h0 : (n + 1) % 8 = 0
    · exact inv_A m c X N Y hx hnn hy (n + 1) hn h0 (by omega)
    · by_cases h1 : (n + 1) % 8 = 7
      · exact inv_C m c X N Y hx hnn hy n hn h0 h1 ih
      · exact inv_B m c X N Y hx hnn hy n hn h0 h1 ih

end Steps

/-! ## The output array after the run -/

/-- An index of the output array is in point `t`'s tile iff each coordinate is in the tile's range on its axis. -/
theorem mem_blk4 (t : Fin cfg0.N) (i : S4096x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v3).slice (win0_4.rect t)).set ↔ _
  rw [View.set_slice_whole, Rect.mem_set_unit]
  exact Iff.rfl

/-- Every row of the output lies in the tile written back at the last key block of its query tile. -/
theorem cover4 (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 32 := N_0
  have hlt : 8 * ((i 0).val / 1024) + 7 < cfg0.N := by rw [hN]; omega
  obtain ⟨-, -, -, -, -, -, -, -, e40, e41⟩ := Blocks.idx_facts ⟨8 * ((i 0).val / 1024) + 7, hlt⟩
  have e40' : win0_4.index ⟨8 * ((i 0).val / 1024) + 7, hlt⟩ (0 : Fin 2) = (8 * ((i 0).val / 1024) + 7) / 8 := e40
  refine ⟨⟨8 * ((i 0).val / 1024) + 7, hlt⟩, (flush0_4 _).mpr (by show (8 * ((i 0).val / 1024) + 7) % 8 = 7; omega), ?_⟩
  rw [mem_blk4]
  intro a
  match a with
  | ⟨0, _⟩ =>
    show win0_4.index ⟨8 * ((i 0).val / 1024) + 7, hlt⟩ (0 : Fin 2) * 1024 ≤ (i 0).val
      ∧ (i 0).val < win0_4.index ⟨8 * ((i 0).val / 1024) + 7, hlt⟩ (0 : Fin 2) * 1024 + 1024
    omega
  | ⟨1, _⟩ =>
    show win0_4.index ⟨8 * ((i 0).val / 1024) + 7, hlt⟩ (1 : Fin 2) * 128 ≤ (i 1).val
      ∧ (i 1).val < win0_4.index ⟨8 * ((i 0).val / 1024) + 7, hlt⟩ (1 : Fin 2) * 128 + 128
    omega

section Final
variable (hx : m ((c : Thread nD τ).loc main_arg0) = up2 X) (hnn : m ((c : Thread nD τ).loc main_arg1) = up2 N)
  (hy : m ((c : Thread nD τ).loc main_arg2) = up2 Y)
include hx hnn hy

/-- What a last-block point writes back is its tile of the blockwise result. -/
theorem flushed4_eq (t : Fin cfg0.N) (hf : (cfg0.win 4).flush t = true) :
    (dats m 0 c).flushed 4 t = ((cfg0.win 4).blk t).view.read (Elt Ideal) (up2 (onlineOut X N Y)) := by
  have h7 : t.val % 8 = 7 := (flush0_4 t).mp hf
  obtain ⟨n, hn⟩ := t
  cases n with
  | zero =>
    have h7' : (0 : ℕ) % 8 = 7 := h7
    omega
  | succ k =>
    have h7' : (k + 1) % 8 = 7 := h7
    have ih := inv_all m c X N Y hx hnn hy k (Nat.lt_of_succ_lt hn)
    have ho := out_C m c X N Y hx hnn hy k hn (by omega) h7' ih
    obtain ⟨-, -, -, -, -, -, -, -, e40, e41⟩ := Blocks.idx_facts ⟨k + 1, hn⟩
    have e40' : win0_4.index ⟨k + 1, hn⟩ (0 : Fin 2) = (k + 1) / 8 := e40
    have hN : k + 1 < 32 := lt_of_lt_of_eq hn N_0
    rw [Value.flushed4]
    rw [show (outsAt0 m c (⟨k + 1, hn⟩ : Fin cfg0.N).val (⟨k + 1, hn⟩ : Fin cfg0.N).isLt).1 = _ from ho]
    funext j
    have h0 : (((cfg0.win 4).blk ⟨k + 1, hn⟩).view.emb j) 0 = iOf ((k + 1) / 8) (j 0) := Fin.ext (by
      show win0_4.index ⟨k + 1, hn⟩ (0 : Fin 2) * 1024 + 1 * (j 0).val = (1024 * ((k + 1) / 8) + (j 0).val) % 4096
      have hj : (j 0).val < 1024 := (j 0).isLt
      omega)
    have h1 : (((cfg0.win 4).blk ⟨k + 1, hn⟩).view.emb j) 1 = j 1 := Fin.ext (by
      show win0_4.index ⟨k + 1, hn⟩ (1 : Fin 2) * 128 + 1 * (j 1).val = (j 1).val
      omega)
    show ((onlineOut X N Y (iOf ((k + 1) / 8) (j 0)) (j 1) : ℝ) : EReal)
      = ((onlineOut X N Y ((((cfg0.win 4).blk ⟨k + 1, hn⟩).view.emb j) 0) ((((cfg0.win 4).blk ⟨k + 1, hn⟩).view.emb j) 1) : ℝ) : EReal)
    rw [h0, h1]

/-- THE OUTPUT after the run, on real inputs: entry by entry the blockwise softmax-weighted sum. -/
theorem kernel_final : (dats m 0 c).arrAt 4 cfg0.N = up2 (onlineOut X N Y) :=
  (dats m 0 c).arrAt_eq_of_cover 4 (up2 (onlineOut X N Y))
    (fun t hf => flushed4_eq m c X N Y hx hnn hy t hf) (cover4)

end Final

end Cert.KernelIdeal.Final

end
-- ==== Proof.RefFinal.lean ====
/-
  The reference's result on real inputs: the expanded distance, the largest distance over all pairs subtracted
  from, the row-wise softmax, and the product with the values — entry by entry the real-number `softmaxOut`.
-/
import proofs.«405029_j15169824489967_3_alg».proof.Proof.Gen.ReferenceIdeal.Read
import proofs.«405029_j15169824489967_3_alg».proof.Proof.Spec
import proofs.«405029_j15169824489967_3_alg».proof.Proof.LibEReal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.Nona Idealize.ShloMosaic Idealize.ShloMosaic.ValueIdx

/-! ## The reference, stage by stage, on lifted real inputs -/

section Stages

variable (X : Fin 4096 → Fin 1024 → ℝ) (N : Fin 8192 → Fin 1024 → ℝ)

/-- The squared norms of the query rows. -/
private theorem sqX_stage (i : Fin 4096) :
    val_main_v1 (F := Ideal) (up2 X) (ix1 i) = ((Cert.Nona.sq X i : ℝ) : EReal) := by
  rw [val_main_v1_apply, val_main_cst_apply, Ideal.ofBits_def, Ideal.ofBits_zero_f32, zero_add]
  unfold Cert.Nona.sq
  rw [← Cert.LibEReal.coe_sum]
  refine Finset.sum_congr rfl fun k _ => ?_
  rw [val_main_v0_apply, Ideal.mulf_def]
  have e : idx_main_v1 (ix1 i) k = ix2 i k := funext fun a => Fin.ext (by
    match a with | ⟨0, _⟩ => rfl | ⟨1, _⟩ => rfl)
  rw [e, up2_apply, EReal.coe_mul]

/-- The squared norms of the neighbour rows. -/
private theorem sqN_stage (j : Fin 8192) :
    val_main_v4 (F := Ideal) (up2 N) (ix1 j) = ((Cert.Nona.sq N j : ℝ) : EReal) := by
  rw [val_main_v4_apply, val_main_cst_0_apply, Ideal.ofBits_def, Ideal.ofBits_zero_f32, zero_add]
  unfold Cert.Nona.sq
  rw [← Cert.LibEReal.coe_sum]
  refine Finset.sum_congr rfl fun k _ => ?_
  rw [val_main_v3_apply, Ideal.mulf_def]
  have e : idx_main_v4 (ix1 j) k = ix2 j k := funext fun a => Fin.ext (by
    match a with | ⟨0, _⟩ => rfl | ⟨1, _⟩ => rfl)
  rw [e, up2_apply, EReal.coe_mul]

/-- The inner products of query rows with neighbour rows. -/
private theorem dot_stage (i : Fin 4096) (j : Fin 8192) :
    val_main_v11 (F := Ideal) (up2 X) (up2 N) (ix2 i j) = ((∑ k, X i k * N j k : ℝ) : EReal) := by
  rw [val_main_v11_apply, ← Cert.LibEReal.coe_sum]
  refine Finset.sum_congr rfl fun k _ => ?_
  rw [val_main_v10_apply]
  have el : lidx_main_v11 (ix2 i j) k = ix2 i k := funext fun a => Fin.ext (by
    match a with | ⟨0, _⟩ => rfl | ⟨1, _⟩ => rfl)
  have er : idx_main_v10 (ridx_main_v11 (ix2 i j) k) = ix2 j k := funext fun a => Fin.ext (by
    match a with | ⟨0, _⟩ => rfl | ⟨1, _⟩ => rfl)
  rw [el, er, up2_apply, up2_apply, EReal.coe_mul]

/-- The expanded squared distance. -/
private theorem d2_stage (i : Fin 4096) (j : Fin 8192) :
    val_main_v14 (F := Ideal) (up2 X) (up2 N) (ix2 i j)
      = ((Cert.Nona.sq X i + Cert.Nona.sq N j - 2 * ∑ k, X i k * N j k : ℝ) : EReal) := by
  rw [val_main_v14_apply, val_main_v9_apply, val_main_v13_apply, val_main_v7_apply, val_main_v2_apply,
    val_main_v8_apply, val_main_v6_apply, val_main_v5_apply, val_main_v12_apply, val_main_cst_1_apply, dot_stage]
  have e1 : idx_main_v2 (idx_main_v7 (ix2 i j)) = ix1 i := funext fun a => Fin.ext (by
    match a with | ⟨0, _⟩ => rfl)
  have e2 : idx_main_v5 (idx_main_v6 (idx_main_v8 (ix2 i j))) = ix1 j := funext fun a => Fin.ext (by
    match a with | ⟨0, _⟩ => rfl)
  rw [e1, e2, sqX_stage, sqN_stage, Ideal.subf_def, Ideal.addf_def, Ideal.mulf_def, Ideal.ofBits_def,
    Cert.LibEReal.ofBits_two, ← EReal.coe_add, ← EReal.coe_mul, ← EReal.coe_sub]

/-- The distance: the square root of the squared distance cut off at zero. -/
private theorem dist_stage (i : Fin 4096) (j : Fin 8192) :
    val_main_v17 (F := Ideal) (up2 X) (up2 N) (ix2 i j) = ((Cert.Nona.dist X N i j : ℝ) : EReal) := by
  rw [val_main_v17_apply, val_main_v16_apply, val_main_v15_apply, val_main_cst_2_apply, d2_stage,
    Ideal.hostUnary_sqrt_def, Ideal.maximumf_def, Ideal.ofBits_def, Ideal.ofBits_zero_f32, ← EReal.coe_zero,
    Cert.LibEReal.max_coe, Cert.LibEReal.sqrt_coe (le_max_right _ _)]
  rfl

/-- The largest member of a family indexed by index pairs is the largest member over the pairs of coordinates. -/
private theorem sup'_idx2 (g : Fin 4096 → Fin 8192 → ℝ) (hne : (Finset.univ : Finset S4096x8192.Idx).Nonempty) :
    Finset.univ.sup' hne (fun idx : S4096x8192.Idx => g (idx 0) (idx 1))
      = Finset.univ.sup' Finset.univ_nonempty (fun p : Fin 4096 × Fin 8192 => g p.1 p.2) := by
  apply le_antisymm
  · apply Finset.sup'_le
    intro idx _
    exact Finset.le_sup' (fun p : Fin 4096 × Fin 8192 => g p.1 p.2) (Finset.mem_univ (idx 0, idx 1))
  · apply Finset.sup'_le
    intro p _
    exact Finset.le_sup' (fun idx : S4096x8192.Idx => g (idx 0) (idx 1)) (Finset.mem_univ (ix2 p.1 p.2))

/-- The largest distance over all pairs. -/
private theorem gmax_stage (j : S_.Idx) :
    val_main_v18 (F := Ideal) (up2 X) (up2 N) j = ((distMax X N : ℝ) : EReal) := by
  unfold val_main_v18
  rw [Host.reduce_eq_fold]
  rw [Finset.filter_true_of_mem fun i _ => funext fun b => b.elim0]
  rw [val_main_cst_3_apply, Ideal.ofBits_def, Cert.LibEReal.ofBits_neg_inf]
  have hx : val_main_v17 (F := Ideal) (up2 X) (up2 N)
      = fun idx : S4096x8192.Idx => ((Cert.Nona.dist X N (idx 0) (idx 1) : ℝ) : EReal) := by
    funext idx
    obtain ⟨i, j, rfl⟩ : ∃ (i : Fin 4096) (j : Fin 8192), idx = ix2 i j := ⟨idx 0, idx 1, eq_ix2 idx⟩
    exact dist_stage X N i j
  rw [hx]
  haveI : Nonempty S4096x8192.Idx := ⟨ix2 0 0⟩
  show Finset.univ.fold max ⊥ _ = _
  rw [Cert.LibEReal.fold_max_bot_coe, sup'_idx2]
  rfl

/-- Nearness: the largest distance minus the distance. -/
private theorem near_stage (i : Fin 4096) (j : Fin 8192) :
    val_main_v20 (F := Ideal) (up2 X) (up2 N) (ix2 i j) = ((near X N i j : ℝ) : EReal) := by
  rw [val_main_v20_apply, val_main_v19_apply, gmax_stage, dist_stage, Ideal.subf_def, ← EReal.coe_sub]
  rfl

/-- A row maximum of an array of extended reals, from −∞: the fold of the maximum along the row. -/
private theorem rowmax_read (y : S4096x8192.Idx → EReal) (i : Fin 4096) :
    Host.reduce (FloatOps.maximumf (F := Ideal) (φ := .f32)) y (val_main_cst_4 (F := Ideal))
        reducesTo_S4096x8192_S4096_d1 h_S_ (ix1 i)
      = (Finset.univ : Finset (Fin 8192)).fold max (⊥ : EReal) (fun k => y (ix2 i k)) := by
  have h : S4096x8192.Reduces [1] S4096 := by decide
  rw [Host.reduce_eq_fold_single (FloatOps.maximumf (F := Ideal) (φ := .f32)) y _ reducesTo_S4096x8192_S4096_d1 h h_S_ (ix1 i),
    val_main_cst_4_apply, Ideal.ofBits_def, Cert.LibEReal.ofBits_neg_inf]
  refine Finset.fold_congr (fun k _ => ?_)
  exact congrArg y (funext fun a => Fin.ext (by match a with | ⟨0, _⟩ => rfl | ⟨1, _⟩ => rfl))

/-- The largest nearness in a row. -/
private theorem rowmax_stage (i : Fin 4096) :
    val_main_v23 (F := Ideal) (up2 X) (up2 N) (ix1 i)
      = ((Finset.univ.sup' Finset.univ_nonempty (near X N i) : ℝ) : EReal) := by
  rw [val_main_v23_apply, val_main_v22_apply, val_main_cst_5_apply, Ideal.ofBits_def,
    Cert.LibEReal.ofBits_neg_inf, Ideal.maximumf_def, max_eq_right bot_le]
  refine (rowmax_read (val_main_v20 (F := Ideal) (up2 X) (up2 N)) i).trans ?_
  have hx : (fun k : Fin 8192 => val_main_v20 (F := Ideal) (up2 X) (up2 N) (ix2 i k))
      = fun k => ((near X N i k : ℝ) : EReal) := funext fun k => near_stage X N i k
  rw [hx, Cert.LibEReal.fold_max_bot_coe]

/-- The exponential of nearness less the row's largest. -/
private theorem exp_stage (i : Fin 4096) (j : Fin 8192) :
    val_main_v27 (F := Ideal) (up2 X) (up2 N) (ix2 i j)
      = ((Real.exp (near X N i j - Finset.univ.sup' Finset.univ_nonempty (near X N i)) : ℝ) : EReal) := by
  rw [val_main_v27_apply, val_main_v26_apply, val_main_v25_apply, val_main_v24_apply, near_stage]
  have e : idx_main_v24 (idx_main_v25 (ix2 i j)) = ix1 i := funext fun a => Fin.ext (by
    match a with | ⟨0, _⟩ => rfl)
  rw [e, rowmax_stage, Ideal.hostUnary_exp_def, Ideal.subf_def, ← EReal.coe_sub, Cert.LibEReal.exp_coe]

/-- The sum of a row's exponentials. -/
private theorem rowsum_stage (i : Fin 4096) :
    val_main_v28 (F := Ideal) (up2 X) (up2 N) (ix1 i)
      = ((∑ j', Real.exp (near X N i j' - Finset.univ.sup' Finset.univ_nonempty (near X N i)) : ℝ) : EReal) := by
  rw [val_main_v28_apply, val_main_cst_6_apply, Ideal.ofBits_def, Ideal.ofBits_zero_f32, zero_add,
    ← Cert.LibEReal.coe_sum]
  refine Finset.sum_congr rfl fun k _ => ?_
  have e : idx_main_v28 (ix1 i) k = ix2 i k := funext fun a => Fin.ext (by
    match a with | ⟨0, _⟩ => rfl | ⟨1, _⟩ => rfl)
  rw [e, exp_stage]

/-- The softmax weight: an exponential over its row's sum, which is positive. -/
private theorem weight_stage (i : Fin 4096) (j : Fin 8192) :
    val_main_v31 (F := Ideal) (up2 X) (up2 N) (ix2 i j)
      = ((Real.exp (near X N i j - Finset.univ.sup' Finset.univ_nonempty (near X N i))
          / ∑ j', Real.exp (near X N i j' - Finset.univ.sup' Finset.univ_nonempty (near X N i)) : ℝ) : EReal) := by
  rw [val_main_v31_apply, val_main_v30_apply, val_main_v29_apply, exp_stage]
  have e : idx_main_v29 (idx_main_v30 (ix2 i j)) = ix1 i := funext fun a => Fin.ext (by
    match a with | ⟨0, _⟩ => rfl)
  rw [e, rowsum_stage, Ideal.hostDivf_def,
    Cert.LibEReal.div_coe_coe _ (ne_of_gt (Finset.sum_pos (fun _ _ => Real.exp_pos _) Finset.univ_nonempty))]

end Stages

/-- On real inputs the reference's last stage is the lift of `softmaxOut`. -/
theorem ref_value (X : Fin 4096 → Fin 1024 → ℝ) (N : Fin 8192 → Fin 1024 → ℝ) (Y : Fin 8192 → Fin 128 → ℝ) :
    val_main_v32 (F := Ideal) (up2 X) (up2 N) (up2 Y) = up2 (softmaxOut X N Y) := by
  funext j
  obtain ⟨i, c, rfl⟩ : ∃ (i : Fin 4096) (c : Fin 128), j = ix2 i c := ⟨j 0, j 1, eq_ix2 j⟩
  rw [val_main_v32_apply, up2_apply]
  unfold softmaxOut
  rw [← Cert.LibEReal.coe_sum]
  refine Finset.sum_congr rfl fun k _ => ?_
  have el : lidx_main_v32 (ix2 i c) k = ix2 i k := funext fun a => Fin.ext (by
    match a with | ⟨0, _⟩ => rfl | ⟨1, _⟩ => rfl)
  have er : ridx_main_v32 (ix2 i c) k = ix2 k c := funext fun a => Fin.ext (by
    match a with | ⟨0, _⟩ => rfl | ⟨1, _⟩ => rfl)
  rw [el, er, weight_stage, up2_apply, EReal.coe_mul]

end Cert.ReferenceIdeal.RefValue

end
-- ==== Proof.lean ====
/-
  The kernel and its reference compute the same distance-weighted average.

  For queries `X`, neighbours `N` and values `Y` the reference forms every Euclidean distance `d i j` (in the
  expanded form `sqrt (max (‖X i‖² + ‖N j‖² − 2⟨X i, N j⟩) 0)`), subtracts it from the largest distance, takes the
  softmax along each row and multiplies by `Y`. The kernel never forms the largest distance: a row's softmax does
  not change when one constant is added to the whole row, so it takes the softmax of `−d i ·` instead, and it does so
  one block of 1024 neighbours at a time, carrying a running maximum, a denominator and a numerator that are rescaled
  whenever the maximum grows, and dividing once at the last block.

  Both runs are read back as values. Under the precondition every input entry is a real number, so both values are
  computed among the reals: the kernel's is `onlineOut` (the invariant of the carried quantities along the grid, then
  the tiles written back at the last blocks cover the output), the reference's is `softmaxOut`, and the two agree
  (`onlineOut_eq_softmaxOut`: the closed form of the blockwise recursion, the shift of a row by a constant, and
  `Σ (e / S) · y = (Σ e · y) / S`). Finiteness is needed: none of these laws holds at the infinities.
-/
import proofs.«405029_j15169824489967_3_alg».proof.Defs
import proofs.«405029_j15169824489967_3_alg».proof.Proof.Gen.Kernel
import proofs.«405029_j15169824489967_3_alg».proof.Proof.Gen.Kernel.Skeleton
import proofs.«405029_j15169824489967_3_alg».proof.Proof.Gen.Kernel.Launch
import proofs.«405029_j15169824489967_3_alg».proof.Proof.Gen.Kernel.Points
import proofs.«405029_j15169824489967_3_alg».proof.Proof.Gen.Kernel.Frame
import proofs.«405029_j15169824489967_3_alg».proof.Proof.Gen.KernelIdeal
import proofs.«405029_j15169824489967_3_alg».proof.Proof.Gen.KernelIdeal.Skeleton
import proofs.«405029_j15169824489967_3_alg».proof.Proof.Gen.KernelIdeal.Launch
import proofs.«405029_j15169824489967_3_alg».proof.Proof.Gen.KernelIdeal.Points
import proofs.«405029_j15169824489967_3_alg».proof.Proof.Gen.KernelIdeal.Frame
import proofs.«405029_j15169824489967_3_alg».proof.Proof.Gen.ReferenceIdeal
import proofs.«405029_j15169824489967_3_alg».proof.Proof.Gen.Pre_finite_inputs
import proofs.«405029_j15169824489967_3_alg».proof.Proof.Gen.KernelIdeal.Value
import proofs.«405029_j15169824489967_3_alg».proof.Proof.Gen.ReferenceIdeal.Run
import proofs.«405029_j15169824489967_3_alg».proof.Proof.Gen.ReferenceIdeal.Read
import proofs.«405029_j15169824489967_3_alg».proof.Proof.Spec
import proofs.«405029_j15169824489967_3_alg».proof.Proof.Online
import proofs.«405029_j15169824489967_3_alg».proof.Proof.Finite
import proofs.«405029_j15169824489967_3_alg».proof.Proof.KernelFinal
import proofs.«405029_j15169824489967_3_alg».proof.Proof.RefFinal
import Idealize.ShloMosaic.Adequacy
import Idealize.ShloMosaic.Init

noncomputable section

namespace Cert.Proof

open Idealize.ShloMosaic Idealize.SL.Sem Cert.Nona

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on finite inputs both programs end with the same array: the reference's last stage. The
    kernel's output is the blockwise form on the inputs' real numbers, the reference's the softmax form, and the two
    forms are one function. -/
theorem algebraic : Cert.algebraic_KernelIdeal_ReferenceIdeal := by
  intro m ρ m' ρ' hpre hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Value.run_blocks (F := Ideal) m ρ)
    obtain ⟨fx, fn, fy⟩ := Cert.Finite.finite_of_pre _ _ _ (hpre c)
    obtain ⟨X, hX⟩ : ∃ X : Fin 4096 → Fin 1024 → ℝ,
        m ((c.tc : Thread Cert.KernelIdeal.nD Cert.KernelIdeal.τ).loc Cert.KernelIdeal.main_arg0) = up2 X :=
      ⟨_, (up2_re2 _ fx).symm⟩
    obtain ⟨N, hN⟩ : ∃ N : Fin 8192 → Fin 1024 → ℝ,
        m ((c.tc : Thread Cert.KernelIdeal.nD Cert.KernelIdeal.τ).loc Cert.KernelIdeal.main_arg1) = up2 N :=
      ⟨_, (up2_re2 _ fn).symm⟩
    obtain ⟨Y, hY⟩ : ∃ Y : Fin 8192 → Fin 128 → ℝ,
        m ((c.tc : Thread Cert.KernelIdeal.nD Cert.KernelIdeal.τ).loc Cert.KernelIdeal.main_arg2) = up2 Y :=
      ⟨_, (up2_re2 _ fy).symm⟩
    refine (Cert.KernelIdeal.Final.kernel_final m c X N Y hX hN hY).trans ?_
    refine (congrArg up2 (funext fun i => funext fun c' => onlineOut_eq_softmaxOut X N Y i c')).trans ?_
    refine (Cert.ReferenceIdeal.RefValue.ref_value X N Y).symm.trans ?_
    dsimp only
    rw [hX, hN, hY]
  · refine (θ_run Cert.ReferenceIdeal.defs _ _).mono (fun r h c => ⟨(h c).1.trans ?_, (h c).2⟩)
      (Cert.ReferenceIdeal.Value.run (F := Ideal) m' ρ')
    dsimp only
    rw [Cert.ReferenceIdeal.Read.val_main_v32_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
